-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Pre_finite_inputs_ReferenceIdeal.lean ====
abbrev S32768x2048 : Shape := ⟨2, ![32768, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  main_v3
-- ==== Kernel.lean ====
abbrev S16384x2048 : Shape := ⟨2, ![16384, 2048]⟩
abbrev S32768x1024 : Shape := ⟨2, ![32768, 1024]⟩
abbrev S2x2048x1024 : Shape := ⟨3, ![2, 2048, 1024]⟩
abbrev S2 : Shape := ⟨1, ![2]⟩
abbrev S_ : Shape := ⟨0, ![]⟩
abbrev S16384x1024 : Shape := ⟨2, ![16384, 1024]⟩
abbrev S1 : Shape := ⟨1, ![1]⟩
abbrev S1x2048x1024 : Shape := ⟨3, ![1, 2048, 1024]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S16384x2048, .f32⟩
  | .hbm, ⟨1, _⟩ => ⟨S32768x1024, .f32⟩
  | .local _ .vmem, ⟨0, _⟩ => ⟨S2x2048x1024, .f32⟩
  | _, _ => ⟨S16384x2048, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v18 : BitVec 32 := Scalar.muli v5 c16384_i32
  let c0_i32_12 : BitVec 32 := 0#32
  ![v18.toNat, 0]
def k0_off2 (d0 : Dev nD) : Fin 2 → Nat :=
  let c0_i32_13 : BitVec 32 := 0#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32 : BitVec 32 := 1024#32
  let v17 : BitVec 32 := Scalar.muli v9 c1024_i32
  ![0, v17.toNat]
def k0_dev2 (d0 : Dev nD) : Nat :=
  let c0_i32_9 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v19 : BitVec 32 := Scalar.muli v2 c8_i32_8
  let v20 : BitVec 32 := Scalar.addi c0_i32_9 v19
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_10 : BitVec 32 := 4#32
  let v21 : BitVec 32 := Scalar.muli v9 c4_i32_10
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v23 : BitVec 32 := Scalar.muli v8 c1_i32_11
  let v24 : BitVec 32 := Scalar.addi v22 v23
  v24.toNat
def k0_off3 (d0 : Dev nD) : Fin 2 → Nat :=
  let c0_i32_19 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_14 : BitVec 32 := 1024#32
  let v27 : BitVec 32 := Scalar.muli v5 c1024_i32_14
  ![0, v27.toNat]
def k0_off4 (d0 : Dev nD) (c0_i32_26 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32_25 : BitVec 32 := 16384#32
  let v38 : BitVec 32 := Scalar.muli v5 c16384_i32_25
  let v39 : BitVec 32 := Scalar.addi v38 c0_i32_26
  let c0_i32_29 : BitVec 32 := 0#32
  ![v39.toNat, 0]
def k0_off5 (d0 : Dev nD) : Fin 2 → Nat :=
  let c2048_i32 : BitVec 32 := 2048#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_32 : BitVec 32 := 1024#32
  let v45 : BitVec 32 := Scalar.muli v5 c1024_i32_32
  ![2048, v45.toNat]
def k0_off6 (d0 : Dev nD) : Fin 2 → Nat :=
  let c4096_i32 : BitVec 32 := 4096#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_54 : BitVec 32 := 1024#32
  let v68 : BitVec 32 := Scalar.muli v5 c1024_i32_54
  ![4096, v68.toNat]
def k0_off7 (d0 : Dev nD) : Fin 2 → Nat :=
  let c6144_i32 : BitVec 32 := 6144#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_76 : BitVec 32 := 1024#32
  let v91 : BitVec 32 := Scalar.muli v5 c1024_i32_76
  ![6144, v91.toNat]
def k0_off8 (d0 : Dev nD) : Fin 2 → Nat :=
  let c8192_i32 : BitVec 32 := 8192#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_98 : BitVec 32 := 1024#32
  let v114 : BitVec 32 := Scalar.muli v5 c1024_i32_98
  ![8192, v114.toNat]
def k0_off9 (d0 : Dev nD) : Fin 2 → Nat :=
  let c10240_i32 : BitVec 32 := 10240#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_120 : BitVec 32 := 1024#32
  let v137 : BitVec 32 := Scalar.muli v5 c1024_i32_120
  ![10240, v137.toNat]
def k0_off10 (d0 : Dev nD) : Fin 2 → Nat :=
  let c12288_i32 : BitVec 32 := 12288#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_142 : BitVec 32 := 1024#32
  let v160 : BitVec 32 := Scalar.muli v5 c1024_i32_142
  ![12288, v160.toNat]
def k0_off11 (d0 : Dev nD) : Fin 2 → Nat :=
  let c14336_i32 : BitVec 32 := 14336#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_164 : BitVec 32 := 1024#32
  let v183 : BitVec 32 := Scalar.muli v5 c1024_i32_164
  ![14336, v183.toNat]

class Facts₀ : Prop where
  hamt_1 : (1#32 : BitVec 32).msb = false
  inb_S2_S1_0 : ∀ a, (![0] : Fin 1 → Nat) a + S1.size a ≤ S2.size a
  squeezes_S1_S_ : S1.Squeezes S_
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  inb_S2_S1_1 : ∀ a, (![1] : Fin 1 → Nat) a + S1.size a ≤ S2.size a
  inb_S2x2048x1024_S1x2048x1024_1_0_0 : ∀ a, (![1, 0, 0] : Fin 3 → Nat) a + S1x2048x1024.size a ≤ S2x2048x1024.size a
  hcc0_scratch1 : 0 + S2.numel ≤ 6
  hcc0_scratch2 : 2 + S2.numel ≤ 6
  hcc0_scratch3 : 4 + S_.numel ≤ 6
  hcc0_scratch4 : 5 + S_.numel ≤ 6
  k0_dev1_lt : ∀ d0 : Dev nD, (k0_dev1 d0) < nD
  k0_off1_inb : ∀ d0 : Dev nD, ∀ a, (k0_off1 d0) a + S16384x1024.size a ≤ S32768x1024.size a
  k0_off2_inb : ∀ d0 : Dev nD, ∀ a, (k0_off2 d0) a + S16384x1024.size a ≤ S16384x2048.size a
  k0_dev2_lt : ∀ d0 : Dev nD, (k0_dev2 d0) < nD
  k0_off3_inb : ∀ d0 : Dev nD, ∀ a, (k0_off3 d0) a + S2048x1024.size a ≤ S16384x2048.size a
  k0_off4_inb : ∀ d0 : Dev nD, ∀ (r : Fin 8), ∀ a, (k0_off4 d0 (BitVec.ofNat 32 (2048 * r.val))) a + S2048x1024.size a ≤ S32768x1024.size a
  k0_off5_inb : ∀ d0 : Dev nD, ∀ a, (k0_off5 d0) a + S2048x1024.size a ≤ S16384x2048.size a
  k0_off6_inb : ∀ d0 : Dev nD, ∀ a, (k0_off6 d0) a + S2048x1024.size a ≤ S16384x2048.size a
  k0_off7_inb : ∀ d0 : Dev nD, ∀ a, (k0_off7 d0) a + S2048x1024.size a ≤ S16384x2048.size a
  k0_off8_inb : ∀ d0 : Dev nD, ∀ a, (k0_off8 d0) a + S2048x1024.size a ≤ S16384x2048.size a
  k0_off9_inb : ∀ d0 : Dev nD, ∀ a, (k0_off9 d0) a + S2048x1024.size a ≤ S16384x2048.size a
  k0_off10_inb : ∀ d0 : Dev nD, ∀ a, (k0_off10 d0) a + S2048x1024.size a ≤ S16384x2048.size a
  k0_off11_inb : ∀ d0 : Dev nD, ∀ a, (k0_off11 d0) a + S2048x1024.size a ≤ S16384x2048.size a

variable [Facts₀]

abbrev cc0_scratch1 : DmaSems sig S2 := SemArray.consecutive 0 S2 hcc0_scratch1
abbrev cc0_scratch2 : DmaSems sig S2 := SemArray.consecutive 2 S2 hcc0_scratch2
abbrev cc0_scratch3 : DmaSems sig S_ := SemArray.consecutive 4 S_ hcc0_scratch3
abbrev cc0_scratch4 : DmaSems sig S_ := SemArray.consecutive 5 S_ hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x2048 : Shape := ⟨2, ![32768, 2048]⟩

abbrev nBuf : Space → Nat
  | .hbm => 1
  | .vmem => 0
  | .smem => 0
  | _ => 0

abbrev bufTy : (tb : Table) → Fin (tcTables nBuf tb) → BufTy
  | .hbm, ⟨0, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Spec.lean ====
/-
  The all-to-all on mesh axis `y`, as a specification.

  The mesh has 16 devices at coordinates (x, y, z) = (c / 8, c / 4 % 2, c % 4).  Device `c` holds rows
  [16384·y, 16384·y + 16384) of the whole 32768 × 2048 array and must end holding columns
  [1024·y, 1024·y + 1024) of all 32768 rows.  Its own rows it has already; the other 16384 rows come from
  its partner, the device at the other `y` with the same `x` and `z`.  `outFinal` states the result of
  device `c` as ONE function of the launch memory: row `r`, column `l` of the result is column
  `1024·y + l` of row `r % 16384` of the argument block of whichever of the two devices holds row `r`.
-/
import proofs.«900638_g7700000000000639_dist_a2a_v7x_xyz2x2x4_y_m16384_n1024_f32_1_alg».proof.KernelIdeal
import Idealize.ShloMosaic.Lib.ValueIdx

noncomputable section

namespace Cert.KernelIdeal.A2A

open Idealize.ShloMosaic Idealize.ShloMosaic.ValueIdx

/-- Device `c`'s coordinate on mesh axis `y`. -/
def yOf (c : Dev nD) : ℕ := (c.val / 4) % 2

theorem yOf_lt (c : Dev nD) : yOf c < 2 := Nat.mod_lt _ (by decide)

/-- The device at the other `y`, same `x` and `z`. -/
def partner (c : Dev nD) : Dev nD :=
  ⟨(8 * (c.val / 8) + (c.val % 4) + 4) - 4 * ((c.val / 4) % 2), by have := c.isLt; simp only [nD] at this ⊢; omega⟩

theorem partner_partner (c : Dev nD) : partner (partner c) = c := by revert c; decide
theorem partner_ne (c : Dev nD) : partner c ≠ c := by revert c; decide
theorem yOf_partner (c : Dev nD) : yOf (partner c) = 1 - yOf c := by revert c; decide

/-- Which device's argument block holds row `r` of the whole array, seen from device `c`: its own block holds the
    rows of its own `y`, its partner's the others. -/
def srcDev (c : Dev nD) (r : ℕ) : Dev nD := if r / 16384 = yOf c then c else partner c

variable {Val : EltTy → Type}

/-- Where entry (r, l) of device `c`'s result is read in the source device's argument block: row `r % 16384`,
    column `1024·y + l`. -/
def srcIdx (c : Dev nD) (i : S32768x1024.Idx) : S16384x2048.Idx :=
  ix2 ⟨(i 0).val % 16384, Nat.mod_lt _ (by decide)⟩
    ⟨1024 * yOf c + (i 1).val, by have h1 := idx2_lt1 i; have h2 := yOf_lt c; omega⟩

/-- The result of device `c` after the exchange, as a function of the memory at launch. -/
def outFinal (m : (ℓ : Loc nD τ sig) → Buf Val ℓ) (c : Dev nD) : Buf Val ((c.tc : Thread nD τ).loc main_v1) :=
  fun i => m (((srcDev c (i 0).val).tc : Thread nD τ).loc main_arg0) (srcIdx c i)

end Cert.KernelIdeal.A2A

end
-- ==== Proof.Sched.lean ====
/-
  The exchange's protocol, under the rounds discipline.

  Device `c` and its partner `p` (the other `y`, same `x` and `z`) meet on three semaphores each, one round
  and one duty a cell:
  * the barrier cell of `c`: one unit, signalled by `p` at its entry.  With it `p` hands `c` the rows of `p`'s
    result that `c` will write (the rows of `c`'s own `y`), at whatever they hold, and the word that `p`
    stands at round 0 of its receive cell;
  * the send cell of `c`: credited by `c`'s own remote copy once its source, the columns of `p`'s `y` of
    `c`'s argument block, has been read; it hands that source back;
  * the receive cell of `c`: credited by `p`'s remote copy once it has landed; it hands `c` the rows of `p`'s
    `y` of `c`'s result, now holding their final contents.
  The four semaphores of the local double-buffered copies are the device's own business.
  A device owes its partner's receive cell the block's credit and its partner's barrier cell one unit; it
  waits on its barrier cell while still owing the receive credit, so barrier cells sit below receive cells.
-/
import proofs.«900638_g7700000000000639_dist_a2a_v7x_xyz2x2x4_y_m16384_n1024_f32_1_alg».proof.Proof.Spec
import proofs.«900638_g7700000000000639_dist_a2a_v7x_xyz2x2x4_y_m16384_n1024_f32_1_alg».proof.Proof.Gen.KernelIdeal
import proofs.«900638_g7700000000000639_dist_a2a_v7x_xyz2x2x4_y_m16384_n1024_f32_1_alg».proof.Proof.Gen.KernelIdeal.Skeleton
import proofs.«900638_g7700000000000639_dist_a2a_v7x_xyz2x2x4_y_m16384_n1024_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra, the exchange's own, and the counters of
    the local copies -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb

instance ER_landsIn : (ER (F := F)).LandsIn (upEmb : UEmb _ 𝕄) := by unfold ER; infer_instance

variable (m : (ℓ : Loc nD τ sig) → Buf (Elt F) ℓ) (ρ : Dev nD → PrngReg)

/-- The memory at launch. -/
def s₀ : MemSt nD τ sig (Elt F) := ⟨m, fun _ => 0, ρ⟩

/-! ## Devices -/

/-- Both of the kernel's device chains name the partner. -/
theorem dev1_eq (c : Dev nD) : (⟨k0_dev1 c, Facts₀.k0_dev1_lt c⟩ : Dev nD) = partner c := Fin.ext (k0_dev1_eq c)
theorem dev2_eq (c : Dev nD) : (⟨k0_dev2 c, Facts₀.k0_dev2_lt c⟩ : Dev nD) = partner c := Fin.ext (k0_dev2_eq c)

def pairing : Dev nD ≃ Dev nD := ⟨partner, partner, partner_partner, partner_partner⟩

/-! ## Memrefs and cells -/

abbrev xM : Memref sig .tc .hbm S16384x2048 .f32 := Memref.whole main_arg0
abbrev oM : Memref sig .tc .hbm S32768x1024 .f32 := Memref.whole main_v1
abbrev bM : Memref sig .tc .vmem S2x2048x1024 .f32 := Memref.whole cc0_scratch0

/-- The remote copy device `c` fires, as its body spells it: from the columns of the partner's `y` of its
    argument block, -/
abbrev rSrc (c : Dev nD) : Memref sig .tc .hbm S16384x1024 .f32 :=
  xM.slice (Rect.unit (s := S16384x2048) (k0_off2 c) S16384x1024.size (Facts₀.k0_off2_inb c)) (fun _ => rfl)
/-- into the rows of its own `y` of the PARTNER's result. -/
abbrev rDst (c : Dev nD) : Memref sig .tc .hbm S16384x1024 .f32 :=
  oM.slice (Rect.unit (s := S32768x1024) (k0_off1 c) S16384x1024.size (Facts₀.k0_off1_inb c)) (fun _ => rfl)

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The semaphores of the local copies: into slot 0 and 1 of the scratch, out of slot 0 and 1. -/
abbrev in0 : DmaSem sig := ((cc0_scratch1.slice (Rect.unit (s := S2) ![0] S1.size Facts₀.inb_S2_S1_0)).squeeze S_ Facts₀.squeezes_S1_S_).sem
abbrev in1 : DmaSem sig := ((cc0_scratch1.slice (Rect.unit (s := S2) ![1] S1.size Facts₀.inb_S2_S1_1)).squeeze S_ Facts₀.squeezes_S1_S_).sem
abbrev out0 : DmaSem sig := ((cc0_scratch2.slice (Rect.unit (s := S2) ![0] S1.size Facts₀.inb_S2_S1_0)).squeeze S_ Facts₀.squeezes_S1_S_).sem
abbrev out1 : DmaSem sig := ((cc0_scratch2.slice (Rect.unit (s := S2) ![1] S1.size Facts₀.inb_S2_S1_1)).squeeze S_ Facts₀.squeezes_S1_S_).sem

/-- The kernel's own (scoped) semaphores, as the launch indexes them, -/
abbrev osem : Fin 6 → SemLoc sig := fun | 0 => .dma in0 | 1 => .dma in1 | 2 => .dma out0 | 3 => .dma out1 | 4 => .dma sendS.sem | 5 => .dma recvS.sem
/-- and the three of the exchange: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The credit of the exchanged block (16384 × 1024 words of the result buffer). -/
@[irreducible] def N : ℕ := (oM.slice (Rect.unit (s := S32768x1024) ![0, 0] S16384x1024.size (by decide)) (fun _ => rfl) : Memref sig .tc .hbm S16384x1024 .f32).view.dmaCredit
theorem N_pos : 0 < N := by unfold N; exact View.dmaCredit_pos _ (by decide)
/-- The credit does not depend on where in the result buffer the block lies. -/
theorem N_eq (c : Dev nD) (sm : DmaSem sig) : (rDst c).view.amount (.dma sm) = N := by unfold N; rfl

/-! ## The payloads -/

/-- What the partner of `c` hands `c` with its barrier signal: the rows of the partner's result that `c`'s remote
    copy writes, and that the partner stands at round 0 of its receive cell. -/
def barPay (c : Dev nD) : sProp 𝕄 :=
  iprop((∃ f : Buf (Elt F) ((rDst c).view.loc (partner c : Thread nD τ)),
      (rDst c).view.loc (partner c : Thread nD τ) ↦[(rDst c).view.set]{fullShare} f)
    ∗ reached ER (recvCell (partner c)) 0)
/-- What `c`'s receive cell hands it: the rows its partner wrote, at their final contents. -/
def recvPay (c : Dev nD) : sProp 𝕄 :=
  (rDst (partner c)).view.loc (c : Thread nD τ) ↦[(rDst (partner c)).view.set]{fullShare} outFinal m c
/-- What `c`'s send cell hands it back: the source of its remote copy. -/
def sendPay (c : Dev nD) : sProp 𝕄 :=
  (rSrc c).view.loc (c : Thread nD τ) ↦[(rSrc c).view.set]{fullShare.right} m ((c : Thread nD τ).loc main_arg0)

abbrev IsCell (g : GSem nD τ sig) : Prop := g.1.2 = .tc ∧ (g.2 = .reg barS ∨ g.2 = .dma sendS.sem ∨ g.2 = .dma recvS.sem)

/-- One round, one duty a cell. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Tables
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar : (sched (F := F) m).duties (barCell c) 0 = {()} := by dsimp only [sched]; exact if_pos ⟨rfl, rfl, .inl rfl⟩
omit [FloatOps F] in
theorem duties_send : (sched (F := F) m).duties (sendCell c) 0 = {()} := by dsimp only [sched]; exact if_pos ⟨rfl, rfl, .inr (.inl rfl)⟩
omit [FloatOps F] in
theorem duties_recv : (sched (F := F) m).duties (recvCell c) 0 = {()} := by dsimp only [sched]; exact if_pos ⟨rfl, rfl, .inr (.inr rfl)⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Unit) : (sched (F := F) m).amount (barCell c) 0 d = 1 := by dsimp only [sched]; exact if_pos rfl
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar

omit [FloatOps F] in
theorem expect_eq_sum (g : GSem nD τ sig) (r : ℕ) :
    (sched (F := F) m).expect g r = ∑ d ∈ (sched (F := F) m).duties g r, (sched (F := F) m).amount g r d := rfl
omit [FloatOps F] in
theorem expect_bar : (sched (F := F) m).expect (barCell c) 0 = 1 :=
  (expect_eq_sum m _ _).trans ((congrArg (fun B => ∑ d ∈ B, (sched (F := F) m).amount (barCell c) 0 d) (duties_bar m c)).trans
    ((Finset.sum_singleton _ _).trans (amount_bar m c ())))
omit [FloatOps F] in
theorem expect_send : (sched (F := F) m).expect (sendCell c) 0 = N :=
  (expect_eq_sum m _ _).trans ((congrArg (fun B => ∑ d ∈ B, (sched (F := F) m).amount (sendCell c) 0 d) (duties_send m c)).trans
    ((Finset.sum_singleton _ _).trans (amount_send m c ())))
omit [FloatOps F] in
theorem expect_recv : (sched (F := F) m).expect (recvCell c) 0 = N :=
  (expect_eq_sum m _ _).trans ((congrArg (fun B => ∑ d ∈ B, (sched (F := F) m).amount (recvCell c) 0 d) (duties_recv m c)).trans
    ((Finset.sum_singleton _ _).trans (amount_recv m c ())))
omit [FloatOps F] in
theorem payload_bar (d : Unit) : (sched (F := F) m).payload (barCell c) 0 d = barPay c := by dsimp only [sched]; rw [if_pos rfl]
omit [FloatOps F] in
theorem payload_send (d : Unit) : (sched (F := F) m).payload (sendCell c) 0 d = sendPay m c := by
  dsimp only [sched]; rw [if_neg send_ne_bar, if_neg send_ne_recv, if_pos rfl]
omit [FloatOps F] in
theorem payload_recv (d : Unit) : (sched (F := F) m).payload (recvCell c) 0 d = recvPay m c := by
  dsimp only [sched]; rw [if_neg recv_ne_bar, if_pos rfl]

omit [FloatOps F] in
theorem rest_bar : bigSep ((sched (F := F) m).duties (barCell c) 0 \ ∅) (fun d => (sched (F := F) m).payload (barCell c) 0 d) = barPay c := by
  rw [Finset.sdiff_empty, duties_bar, bigSep_singleton, payload_bar]
omit [FloatOps F] in
theorem rest_send : bigSep ((sched (F := F) m).duties (sendCell c) 0 \ ∅) (fun d => (sched (F := F) m).payload (sendCell c) 0 d) = sendPay m c := by
  rw [Finset.sdiff_empty, duties_send, bigSep_singleton, payload_send]
omit [FloatOps F] in
theorem rest_recv : bigSep ((sched (F := F) m).duties (recvCell c) 0 \ ∅) (fun d => (sched (F := F) m).payload (recvCell c) 0 d) = recvPay m c := by
  rw [Finset.sdiff_empty, duties_recv, bigSep_singleton, payload_recv]

end Tables

/-! ## What each core owes at launch; the levels -/

/-- Device `c` owes its partner's receive cell the block's credit and its partner's barrier cell one unit (the
    signal, first, peels the last summand). -/
def O₁ (c : Dev nD) : CellTallies nD τ sig Unit := tallyAt (recvCell (partner c)) () N
def O₀ (c : Dev nD) : CellTallies nD τ sig Unit := O₁ c + tallyAt (barCell (partner c)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The proof data -/

/-- The cells' invariants device `c`'s body opens, at the names `K` of the launch: its own three, its partner's
    barrier cell (its signal) and receive cell (its remote copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (partner c, 0)) (barCell (partner c)) ∗ cellInv ER (sched m) (K (partner c, 2)) (recvCell (partner c)))

instance invs_persistent (K : Dev nD × Fin 3 → ℕ) (c : Dev nD) : BI.Persistent (invs m K c) := by unfold invs; infer_instance

/-- The exchange's ghost state device `c` starts from: the invariants; its positions at round 0 of its three cells;
    the reached-marks of the cells it pays and of its own send and receive cells; the three duty tokens it pays
    with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (partner c)) 0 ∗ reached ER (recvCell (partner c)) 0 ∗ reached ER (sendCell c) 0 ∗ reached ER (recvCell c) 0
    ∗ dutyTok ER (barCell (partner c)) 0 () ∗ dutyTok ER (recvCell (partner c)) 0 () ∗ dutyTok ER (sendCell c) 0 ())

/-- The four local-copy semaphores of device `c`, at zero. -/
def localSems (c : Dev nD) : sProp 𝕄 :=
  iprop(semVal ((c : Thread nD τ), .dma in0) 0 ∗ semVal ((c : Thread nD τ), .dma in1) 0
    ∗ semVal ((c : Thread nD τ), .dma out0) 0 ∗ semVal ((c : Thread nD τ), .dma out1) 0)

/-- What the launch's global step makes for device `c`. -/
def G' (c : Dev nD) : sProp 𝕄 := iprop((∃ K, ghost m K c) ∗ localSems c)

/-- Device `c`'s argument block and result, whole, as launched. -/
def xPts (c : Dev nD) : sProp 𝕄 := ((c : Thread nD τ).loc main_arg0) ↦{fullShare} m ((c : Thread nD τ).loc main_arg0)
def oPts0 (c : Dev nD) : sProp 𝕄 := ((c : Thread nD τ).loc main_v1) ↦{fullShare} m ((c : Thread nD τ).loc main_v1)
/-- The result, whole, after the exchange. -/
def oPts1 (c : Dev nD) : sProp 𝕄 := ((c : Thread nD τ).loc main_v1) ↦{fullShare} outFinal m c

/-- What device `c`'s body starts from, the scratch apart. -/
def start (c : Dev nD) : sProp 𝕄 :=
  iprop(G' m c ∗ cred (tallyAt (barCell c) () 1) ∗ cred (tallyAt (recvCell c) () N) ∗ levAts L lv ∗ xPts m c ∗ oPts0 m c)

def Φ₀ (c : Dev nD) : sProp 𝕄 :=
  iprop(start m c ∗ ∃ f : Buf (Elt F) ((c : Thread nD τ).loc cc0_scratch0), ((c : Thread nD τ).loc cc0_scratch0) ↦{fullShare} f)
/-- After the body: the argument block as launched, the result at its final contents, the scratch at whatever the
    copies left, the six own semaphores at zero. -/
def Φ₁ (c : Dev nD) : sProp 𝕄 :=
  iprop(xPts m c ∗ oPts1 m c
    ∗ (∃ f : Buf (Elt F) ((c : Thread nD τ).loc cc0_scratch0), ((c : Thread nD τ).loc cc0_scratch0) ↦{fullShare} f)
    ∗ localSems c ∗ semVal (sendCell c) 0 ∗ semVal (recvCell c) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.A2A

end
-- ==== Proof.Geom.lean ====
/-
  The exchange's geometry: how the result buffer and the argument block of a device are cut by the exchange's
  two copies, and what a landed copy holds.

  On device `c` at mesh coordinate `y` the 32768 × 1024 result is two halves by rows: rows
  [16384·y, 16384·y + 16384), which the device fills from its own argument block, and the rows of the other `y`,
  which its partner's remote copy fills.  That copy reads columns [1024·(1 − y'), 1024·(1 − y') + 1024) of the
  partner's argument block (`y'` the partner's coordinate, so 1 − y' = y) and writes them, row for row, into rows
  [16384·y', 16384·y' + 16384) of `c`'s result: entry (16384·y' + r, l) of the result then holds entry
  (r, 1024·y + l) of the partner's block, which is what `outFinal` names there.
-/
import proofs.«900638_g7700000000000639_dist_a2a_v7x_xyz2x2x4_y_m16384_n1024_f32_1_alg».proof.Proof.Sched
import Idealize.ShloMosaic.Lib.Pipeline.Value
import Idealize.ShloMosaic.Rules.PointsTo

noncomputable section

namespace Cert.KernelIdeal.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two rectangles -/

/-- The destination of `c`'s remote copy, as a set of indices of the result buffer, is its rectangle. -/
theorem rDst_set (c : Dev nD) :
    (rDst c).view.set = (Rect.unit (s := S32768x1024) (k0_off1 c) S16384x1024.size (Facts₀.k0_off1_inb c)).set :=
  View.set_slice_whole main_v1 _

/-- The source of `c`'s remote copy, as a set of indices of the argument block, is its rectangle. -/
theorem rSrc_set (c : Dev nD) :
    (rSrc c).view.set = (Rect.unit (s := S16384x2048) (k0_off2 c) S16384x1024.size (Facts₀.k0_off2_inb c)).set :=
  View.set_slice_whole main_arg0 _

/-- The destination rectangle of `c` is the rows [16384·y, 16384·y + 16384), all columns. -/
theorem mem_rDst_set (c : Dev nD) (i : S32768x1024.Idx) :
    i ∈ (rDst c).view.set ↔ 16384 * yOf c ≤ (i 0).val ∧ (i 0).val < 16384 * yOf c + 16384 := by
  have h1 : (i 1).val < 1024 := idx2_lt1 i
  rw [rDst_set, Rect.mem_set_unit, k0_off1_eq c]
  constructor
  · intro h
    have h0 := h ⟨0, by decide⟩
    exact h0
  · intro h a
    match a with
    | ⟨0, _⟩ => exact h
    | ⟨1, _⟩ =>
      show 0 ≤ (i 1).val ∧ (i 1).val < 0 + 1024
      omega

/-- The source rectangle of `c` is the columns [1024·(1 − y), 1024·(1 − y) + 1024), all rows. -/
theorem mem_rSrc_set (c : Dev nD) (i : S16384x2048.Idx) :
    i ∈ (rSrc c).view.set ↔ 1024 - 1024 * yOf c ≤ (i 1).val ∧ (i 1).val < 1024 - 1024 * yOf c + 1024 := by
  have h0 : (i 0).val < 16384 := idx2_lt0 i
  rw [rSrc_set, Rect.mem_set_unit, k0_off2_eq c]
  constructor
  · intro h
    have h1 := h ⟨1, by decide⟩
    exact h1
  · intro h a
    match a with
    | ⟨0, _⟩ =>
      show 0 ≤ (i 0).val ∧ (i 0).val < 0 + 16384
      omega
    | ⟨1, _⟩ => exact h

/-- The rows that are not of `c`'s own `y` are the rows of its partner's. -/
theorem rDst_compl (c : Dev nD) : Finset.univ \ (rDst c).view.set = (rDst (partner c)).view.set := by
  ext i
  have h0 : ((i : S32768x1024.Idx) 0).val < 32768 := idx2_lt0 (i : S32768x1024.Idx)
  have hy := yOf_lt c
  have hp := yOf_partner c
  constructor
  · intro h
    have hn := mt (mem_rDst_set c i).mpr (Finset.mem_sdiff.mp h).2
    refine (mem_rDst_set (partner c) i).mpr ?_
    omega
  · intro h
    have hi := (mem_rDst_set (partner c) i).mp h
    refine Finset.mem_sdiff.mpr ⟨Finset.mem_univ _, fun hc => ?_⟩
    have hc' := (mem_rDst_set c i).mp hc
    omega

/-- Where an index of the destination rectangle lies in the result buffer: 16384·y rows down. -/
theorem rDst_emb_val (c : Dev nD) (x : S16384x1024.Idx) :
    (((rDst c).view.emb x : S32768x1024.Idx) 0).val = 16384 * yOf c + (x 0).val
      ∧ (((rDst c).view.emb x : S32768x1024.Idx) 1).val = (x 1).val := by
  show k0_off1 c 0 + 1 * (x 0).val = _ ∧ k0_off1 c 1 + 1 * (x 1).val = _
  rw [k0_off1_eq c]
  show 16384 * yOf c + 1 * (x 0).val = _ ∧ 0 + 1 * (x 1).val = _
  omega

/-- Where an index of the source rectangle lies in the argument block: 1024·(1 − y) columns along. -/
theorem rSrc_emb_val (c : Dev nD) (x : S16384x1024.Idx) :
    (((rSrc c).view.emb x : S16384x2048.Idx) 0).val = (x 0).val
      ∧ (((rSrc c).view.emb x : S16384x2048.Idx) 1).val = 1024 - 1024 * yOf c + (x 1).val := by
  show k0_off2 c 0 + 1 * (x 0).val = _ ∧ k0_off2 c 1 + 1 * (x 1).val = _
  rw [k0_off2_eq c]
  show 0 + 1 * (x 0).val = _ ∧ (1024 - 1024 * yOf c) + 1 * (x 1).val = _
  omega

/-! ## The result read by rows -/

omit [FloatOps F] in
/-- The result at a row read from device `d`'s block. -/
theorem outFinal_of_src (c d : Dev nD) (i : S32768x1024.Idx) (h : srcDev c (i 0).val = d) :
    outFinal m c i = m ((d : Thread nD τ).loc main_arg0) (srcIdx c i) := by
  subst h; rfl

omit [FloatOps F] in
/-- On the rows of its own `y` the result of `c` reads `c`'s own block. -/
theorem outFinal_own (c : Dev nD) (i : S32768x1024.Idx) (hi : (i 0).val / 16384 = yOf c) :
    outFinal m c i = m ((c : Thread nD τ).loc main_arg0) (srcIdx c i) :=
  outFinal_of_src m c c i (if_pos hi)

/-- Seen from the partner of `s`, the rows of `s`'s `y` are held by `s`. -/
theorem srcDev_partner_of_row (s : Dev nD) (r : ℕ) (h : r / 16384 = yOf s) : srcDev (partner s) r = s := by
  have hy := yOf_lt s
  unfold srcDev
  rw [if_neg (by rw [yOf_partner]; omega), partner_partner]

/-! ## Cutting and joining the buffers -/

/-- The result buffer of `c` is its own rows and its partner's rows. -/
theorem out_split (c : Dev nD) (f : Buf (Elt F) ((c : Thread nD τ).loc main_v1)) :
    ((((c : Thread nD τ).loc main_v1) ↦{fullShare} f : sProp 𝕄)) ⊣⊢
      iprop((((c : Thread nD τ).loc main_v1) ↦[(rDst c).view.set]{fullShare} f)
        ∗ ((rDst (partner c)).view.loc (c : Thread nD τ) ↦[(rDst (partner c)).view.set]{fullShare} f)) := by
  have h := pointsTo_split_subset (Ix := Unit) (Name := ℕ) (U := UU) (Lvl := ℕ) (ℓ := (c : Thread nD τ).loc main_v1)
    (q := fullShare) (f := f) (Finset.subset_univ (rDst c).view.set)
  rw [rDst_compl c] at h
  exact h

/-- Its own rows at the final contents and the partner's landed rows make the final result. -/
theorem out_join (c : Dev nD) (g : Buf (Elt F) ((c : Thread nD τ).loc main_v1))
    (hg : ∀ i ∈ (rDst c).view.set, g i = outFinal m c i) :
    iprop((((c : Thread nD τ).loc main_v1) ↦[(rDst c).view.set]{fullShare} g) ∗ recvPay m c) ⊢ oPts1 m c := by
  unfold recvPay oPts1
  rw [pointsTo_congr hg]
  exact (out_split c (outFinal m c)).mpr

/-- The argument block of `c`: a half share of all of it, and of the other half share the remote copy's source and
    the rest. -/
theorem x_split (c : Dev nD) :
    xPts m c ⊣⊢ iprop((((c : Thread nD τ).loc main_arg0) ↦{fullShare.left} m ((c : Thread nD τ).loc main_arg0))
      ∗ sendPay m c
      ∗ (((c : Thread nD τ).loc main_arg0) ↦[Finset.univ \ (rSrc c).view.set]{fullShare.right} m ((c : Thread nD τ).loc main_arg0))) := by
  unfold xPts sendPay
  exact (pointsTo_share (PosShare.mem_left_op_right fullShare)).trans
    (sep_congr_right (pointsTo_split_subset (Finset.subset_univ (rSrc c).view.set)))

/-! ## What a landed copy holds -/

/-- Two casts along inverse type equations cancel. -/
theorem cast_cast_cancel {α β : Type} (h₁ : α = β) (h₂ : β = α) (a : α) : cast h₂ (cast h₁ a) = a := by
  subst h₁; rfl

/-- What the remote copy of `s` lands in its partner's result is the partner's final contents there: entry
    (16384·y + r, l) is entry (r, 1024·(1 − y) + l) of `s`'s argument block, `y` the coordinate of `s`. -/
theorem landing (s : Dev nD) (fd : Buf (Elt F) ((rDst s).view.loc (partner s : Thread nD τ))) :
    ((rDst s).view.loc (partner s : Thread nD τ) ↦[(rDst s).view.set]{fullShare}
        ((rDst s).view.write (Elt F) fd ((rSrc s).view.read (Elt F) (m ((s : Thread nD τ).loc main_arg0))) Finset.univ) : sProp 𝕄)
      ⊢ recvPay m (partner s) := by
  unfold recvPay
  rw [partner_partner]
  refine Entails.of_eq (pointsTo_congr fun i hi => ?_)
  obtain ⟨x, rfl⟩ := View.exists_emb_of_mem_set _ hi
  rw [View.write_emb_of_mem _ _ (Finset.mem_univ x), View.read_apply]
  refine (cast_cast_cancel _ _ _).trans ?_
  have hx0 : (x 0).val < 16384 := idx2_lt0 x
  have hy := yOf_lt s
  obtain ⟨hd0, hd1⟩ := rDst_emb_val s x
  obtain ⟨hs0, hs1⟩ := rSrc_emb_val s x
  have hsrc : srcDev (partner s) (((rDst s).view.emb x : S32768x1024.Idx) 0).val = s :=
    srcDev_partner_of_row s _ (by rw [hd0]; omega)
  rw [outFinal_of_src m (partner s) s _ hsrc]
  refine congrArg (m ((s : Thread nD τ).loc main_arg0)) ?_
  funext a
  apply Fin.ext
  match a with
  | ⟨0, _⟩ =>
    show (((rSrc s).view.emb x : S16384x2048.Idx) 0).val = (((rDst s).view.emb x : S32768x1024.Idx) 0).val % 16384
    rw [hs0, hd0]; omega
  | ⟨1, _⟩ =>
    show (((rSrc s).view.emb x : S16384x2048.Idx) 1).val
      = 1024 * yOf (partner s) + (((rDst s).view.emb x : S32768x1024.Idx) 1).val
    rw [hs1, hd1, yOf_partner]; omega

/-- info: 'Cert.KernelIdeal.A2A.landing' depends on axioms: [propext, Classical.choice, Quot.sound] -/
#guard_msgs in #print axioms landing

end Cert.KernelIdeal.A2A

end
-- ==== Proof.Chunks.lean ====
/-
  The local copies move the argument block's columns of the device's own `y` to the rows of its own `y` of the
  result, 2048 rows at a time through a two-slot scratch.  These are the eight windows of the result and the eight
  windows of the argument block, as the body spells them.
-/
import proofs.«900638_g7700000000000639_dist_a2a_v7x_xyz2x2x4_y_m16384_n1024_f32_1_alg».proof.Proof.Sched

noncomputable section

namespace Cert.KernelIdeal.A2A

open Cert.KernelIdeal Cert.KernelIdeal.Gen
open Idealize.ShloMosaic

/-! ## Rows [16384·y + 2048·r, +2048) of the result -/

abbrev oCh0 (c : Dev nD) : Memref sig .tc .hbm S2048x1024 .f32 :=
  oM.slice (Rect.unit (s := S32768x1024) (k0_off4 c 0#32) S2048x1024.size (Facts₀.k0_off4_inb c 0)) (fun _ => rfl)
abbrev oCh1 (c : Dev nD) : Memref sig .tc .hbm S2048x1024 .f32 :=
  oM.slice (Rect.unit (s := S32768x1024) (k0_off4 c 2048#32) S2048x1024.size (Facts₀.k0_off4_inb c 1)) (fun _ => rfl)
abbrev oCh2 (c : Dev nD) : Memref sig .tc .hbm S2048x1024 .f32 :=
  oM.slice (Rect.unit (s := S32768x1024) (k0_off4 c 4096#32) S2048x1024.size (Facts₀.k0_off4_inb c 2)) (fun _ => rfl)
abbrev oCh3 (c : Dev nD) : Memref sig .tc .hbm S2048x1024 .f32 :=
  oM.slice (Rect.unit (s := S32768x1024) (k0_off4 c 6144#32) S2048x1024.size (Facts₀.k0_off4_inb c 3)) (fun _ => rfl)
abbrev oCh4 (c : Dev nD) : Memref sig .tc .hbm S2048x1024 .f32 :=
  oM.slice (Rect.unit (s := S32768x1024) (k0_off4 c 8192#32) S2048x1024.size (Facts₀.k0_off4_inb c 4)) (fun _ => rfl)
abbrev oCh5 (c : Dev nD) : Memref sig .tc .hbm S2048x1024 .f32 :=
  oM.slice (Rect.unit (s := S32768x1024) (k0_off4 c 10240#32) S2048x1024.size (Facts₀.k0_off4_inb c 5)) (fun _ => rfl)
abbrev oCh6 (c : Dev nD) : Memref sig .tc .hbm S2048x1024 .f32 :=
  oM.slice (Rect.unit (s := S32768x1024) (k0_off4 c 12288#32) S2048x1024.size (Facts₀.k0_off4_inb c 6)) (fun _ => rfl)
abbrev oCh7 (c : Dev nD) : Memref sig .tc .hbm S2048x1024 .f32 :=
  oM.slice (Rect.unit (s := S32768x1024) (k0_off4 c 14336#32) S2048x1024.size (Facts₀.k0_off4_inb c 7)) (fun _ => rfl)

/-! ## Rows [2048·r, +2048), columns [1024·y, +1024) of the argument block -/

abbrev xCh0 (c : Dev nD) : Memref sig .tc .hbm S2048x1024 .f32 :=
  xM.slice (Rect.unit (s := S16384x2048) (k0_off3 c) S2048x1024.size (Facts₀.k0_off3_inb c)) (fun _ => rfl)
abbrev xCh1 (c : Dev nD) : Memref sig .tc .hbm S2048x1024 .f32 :=
  xM.slice (Rect.unit (s := S16384x2048) (k0_off5 c) S2048x1024.size (Facts₀.k0_off5_inb c)) (fun _ => rfl)
abbrev xCh2 (c : Dev nD) : Memref sig .tc .hbm S2048x1024 .f32 :=
  xM.slice (Rect.unit (s := S16384x2048) (k0_off6 c) S2048x1024.size (Facts₀.k0_off6_inb c)) (fun _ => rfl)
abbrev xCh3 (c : Dev nD) : Memref sig .tc .hbm S2048x1024 .f32 :=
  xM.slice (Rect.unit (s := S16384x2048) (k0_off7 c) S2048x1024.size (Facts₀.k0_off7_inb c)) (fun _ => rfl)
abbrev xCh4 (c : Dev nD) : Memref sig .tc .hbm S2048x1024 .f32 :=
  xM.slice (Rect.unit (s := S16384x2048) (k0_off8 c) S2048x1024.size (Facts₀.k0_off8_inb c)) (fun _ => rfl)
abbrev xCh5 (c : Dev nD) : Memref sig .tc .hbm S2048x1024 .f32 :=
  xM.slice (Rect.unit (s := S16384x2048) (k0_off9 c) S2048x1024.size (Facts₀.k0_off9_inb c)) (fun _ => rfl)
abbrev xCh6 (c : Dev nD) : Memref sig .tc .hbm S2048x1024 .f32 :=
  xM.slice (Rect.unit (s := S16384x2048) (k0_off10 c) S2048x1024.size (Facts₀.k0_off10_inb c)) (fun _ => rfl)
abbrev xCh7 (c : Dev nD) : Memref sig .tc .hbm S2048x1024 .f32 :=
  xM.slice (Rect.unit (s := S16384x2048) (k0_off11 c) S2048x1024.size (Facts₀.k0_off11_inb c)) (fun _ => rfl)

end Cert.KernelIdeal.A2A

end
-- ==== Proof.ChunkVal.lean ====
/-
  The local copies, read by value: each of the eight 2048-row windows of the device's own rows of the result,
  written once with what the matching window of the argument block reads, holds the result's final contents;
  and the device's own rows are those eight windows, one after the other.

  Window `r` of the result of device `c` at mesh coordinate `y` is rows [16384·y + 2048·r, +2048), all columns;
  window `r` of its argument block is rows [2048·r, +2048), columns [1024·y, +1024).  Entry
  (16384·y + 2048·r + j₀, j₁) of the result is, by `outFinal`, entry ((16384·y + 2048·r + j₀) % 16384, 1024·y + j₁)
  = (2048·r + j₀, 1024·y + j₁) of the device's own block: entry (j₀, j₁) of the argument window.
-/
import proofs.«900638_g7700000000000639_dist_a2a_v7x_xyz2x2x4_y_m16384_n1024_f32_1_alg».proof.Proof.Geom
import proofs.«900638_g7700000000000639_dist_a2a_v7x_xyz2x2x4_y_m16384_n1024_f32_1_alg».proof.Proof.Chunks
import Idealize.ShloMosaic.Lib.Writes
import Idealize.ShloMosaic.Lib.Exec.Geometry

noncomputable section

namespace Cert.KernelIdeal.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A 2048 × 1024 window of the result, and one of the argument block, at any offsets -/

abbrev oWin (off : Fin 2 → ℕ) (inb : ∀ a, off a + S2048x1024.size a ≤ S32768x1024.size a) :
    Memref sig .tc .hbm S2048x1024 .f32 :=
  oM.slice (Rect.unit (s := S32768x1024) off S2048x1024.size inb) (fun _ => rfl)

abbrev xWin (off : Fin 2 → ℕ) (inb : ∀ a, off a + S2048x1024.size a ≤ S16384x2048.size a) :
    Memref sig .tc .hbm S2048x1024 .f32 :=
  xM.slice (Rect.unit (s := S16384x2048) off S2048x1024.size inb) (fun _ => rfl)

theorem oWin_set (off : Fin 2 → ℕ) (inb : ∀ a, off a + S2048x1024.size a ≤ S32768x1024.size a) :
    (oWin off inb).view.set = (Rect.unit (s := S32768x1024) off S2048x1024.size inb).set :=
  View.set_slice_whole main_v1 _

/-- A window of the result is the indices within its row and column ranges. -/
theorem mem_oWin (off : Fin 2 → ℕ) (inb : ∀ a, off a + S2048x1024.size a ≤ S32768x1024.size a) (i : S32768x1024.Idx) :
    i ∈ (oWin off inb).view.set ↔
      (off 0 ≤ (i 0).val ∧ (i 0).val < off 0 + 2048) ∧ (off 1 ≤ (i 1).val ∧ (i 1).val < off 1 + 1024) := by
  rw [oWin_set, Rect.mem_set_unit]
  constructor
  · intro h
    have h0 := h (0 : Fin 2)
    have h1 := h (1 : Fin 2)
    exact ⟨h0, h1⟩
  · intro h a
    match a with
    | ⟨0, _⟩ => exact h.1
    | ⟨1, _⟩ => exact h.2

/-- Where an index of a window lies in the result buffer. -/
theorem oWin_emb_val (off : Fin 2 → ℕ) (inb : ∀ a, off a + S2048x1024.size a ≤ S32768x1024.size a) (x : S2048x1024.Idx)
    (a : Fin 2) : (((oWin off inb).view.emb x : S32768x1024.Idx) a).val = off a + (x a).val := by
  show off a + 1 * (x a).val = _
  omega

/-- Where an index of a window lies in the argument block. -/
theorem xWin_emb_val (off : Fin 2 → ℕ) (inb : ∀ a, off a + S2048x1024.size a ≤ S16384x2048.size a) (x : S2048x1024.Idx)
    (a : Fin 2) : (((xWin off inb).view.emb x : S16384x2048.Idx) a).val = off a + (x a).val := by
  show off a + 1 * (x a).val = _
  omega

/-! ## One window, written once -/

/-- Window `r` of the result written with what window `r` of the argument block reads holds the final contents. -/
theorem chunk_val_gen (c : Dev nD) (r : ℕ) (hr : r < 8)
    (offo : Fin 2 → ℕ) (inbo : ∀ a, offo a + S2048x1024.size a ≤ S32768x1024.size a)
    (offx : Fin 2 → ℕ) (inbx : ∀ a, offx a + S2048x1024.size a ≤ S16384x2048.size a)
    (ho : offo = ![16384 * yOf c + 2048 * r, 0]) (hx : offx = ![2048 * r, 1024 * yOf c])
    (o0 : Buf (Elt F) ((c : Thread nD τ).loc main_v1)) :
    ∀ i ∈ (oWin offo inbo).view.set,
      (oWin offo inbo).view.writes (Elt F) o0
        [⟨Rect.whole S2048x1024, (xWin offx inbx).view.read (Elt F) (m ((c : Thread nD τ).loc main_arg0))⟩] i
      = outFinal m c i := by
  intro i hi
  have ho0 : offo 0 = 16384 * yOf c + 2048 * r := congrFun ho 0
  have ho1 : offo 1 = 0 := congrFun ho 1
  have hx0 : offx 0 = 2048 * r := congrFun hx 0
  have hx1 : offx 1 = 1024 * yOf c := congrFun hx 1
  obtain ⟨x, rfl⟩ := View.exists_emb_of_mem_set _ hi
  have e := (View.write_univ_eq_writes_whole (Val := Elt F) (oWin offo inbo).view o0 []
    ((xWin offx inbx).view.read (Elt F) (m ((c : Thread nD τ).loc main_arg0)))).symm
  rw [View.writes_nil] at e
  rw [e, View.write_emb_of_mem _ _ (Finset.mem_univ x), View.read_apply]
  refine (cast_cast_cancel _ _ _).trans ?_
  have hx0' : (x 0).val < 2048 := idx2_lt0 x
  have hd0 := oWin_emb_val offo inbo x 0
  have hd1 := oWin_emb_val offo inbo x 1
  have hs0 := xWin_emb_val offx inbx x 0
  have hs1 := xWin_emb_val offx inbx x 1
  rw [outFinal_own m c _ (by rw [hd0, ho0]; omega)]
  refine congrArg (m ((c : Thread nD τ).loc main_arg0)) ?_
  funext a
  apply Fin.ext
  match a with
  | ⟨0, _⟩ =>
    show (((xWin offx inbx).view.emb x : S16384x2048.Idx) 0).val
      = (((oWin offo inbo).view.emb x : S32768x1024.Idx) 0).val % 16384
    rw [hs0, hd0, ho0, hx0]; omega
  | ⟨1, _⟩ =>
    show (((xWin offx inbx).view.emb x : S16384x2048.Idx) 1).val
      = 1024 * yOf c + (((oWin offo inbo).view.emb x : S32768x1024.Idx) 1).val
    rw [hs1, hd1, ho1, hx1]; omega

theorem chunk_val0 (c : Dev nD) (o0 : Buf (Elt F) ((c : Thread nD τ).loc main_v1)) :
    ∀ i ∈ (oCh0 c).view.set, (oCh0 c).view.writes (Elt F) o0
      [⟨Rect.whole S2048x1024, (xCh0 c).view.read (Elt F) (m ((c : Thread nD τ).loc main_arg0))⟩] i = outFinal m c i :=
  chunk_val_gen m c 0 (by decide) _ _ _ _ (k0_off4_eq c 0) (k0_off3_eq c) o0

theorem chunk_val1 (c : Dev nD) (o0 : Buf (Elt F) ((c : Thread nD τ).loc main_v1)) :
    ∀ i ∈ (oCh1 c).view.set, (oCh1 c).view.writes (Elt F) o0
      [⟨Rect.whole S2048x1024, (xCh1 c).view.read (Elt F) (m ((c : Thread nD τ).loc main_arg0))⟩] i = outFinal m c i :=
  chunk_val_gen m c 1 (by decide) _ _ _ _ (k0_off4_eq c 1) (k0_off5_eq c) o0

theorem chunk_val2 (c : Dev nD) (o0 : Buf (Elt F) ((c : Thread nD τ).loc main_v1)) :
    ∀ i ∈ (oCh2 c).view.set, (oCh2 c).view.writes (Elt F) o0
      [⟨Rect.whole S2048x1024, (xCh2 c).view.read (Elt F) (m ((c : Thread nD τ).loc main_arg0))⟩] i = outFinal m c i :=
  chunk_val_gen m c 2 (by decide) _ _ _ _ (k0_off4_eq c 2) (k0_off6_eq c) o0

theorem chunk_val3 (c : Dev nD) (o0 : Buf (Elt F) ((c : Thread nD τ).loc main_v1)) :
    ∀ i ∈ (oCh3 c).view.set, (oCh3 c).view.writes (Elt F) o0
      [⟨Rect.whole S2048x1024, (xCh3 c).view.read (Elt F) (m ((c : Thread nD τ).loc main_arg0))⟩] i = outFinal m c i :=
  chunk_val_gen m c 3 (by decide) _ _ _ _ (k0_off4_eq c 3) (k0_off7_eq c) o0

theorem chunk_val4 (c : Dev nD) (o0 : Buf (Elt F) ((c : Thread nD τ).loc main_v1)) :
    ∀ i ∈ (oCh4 c).view.set, (oCh4 c).view.writes (Elt F) o0
      [⟨Rect.whole S2048x1024, (xCh4 c).view.read (Elt F) (m ((c : Thread nD τ).loc main_arg0))⟩] i = outFinal m c i :=
  chunk_val_gen m c 4 (by decide) _ _ _ _ (k0_off4_eq c 4) (k0_off8_eq c) o0

theorem chunk_val5 (c : Dev nD) (o0 : Buf (Elt F) ((c : Thread nD τ).loc main_v1)) :
    ∀ i ∈ (oCh5 c).view.set, (oCh5 c).view.writes (Elt F) o0
      [⟨Rect.whole S2048x1024, (xCh5 c).view.read (Elt F) (m ((c : Thread nD τ).loc main_arg0))⟩] i = outFinal m c i :=
  chunk_val_gen m c 5 (by decide) _ _ _ _ (k0_off4_eq c 5) (k0_off9_eq c) o0

theorem chunk_val6 (c : Dev nD) (o0 : Buf (Elt F) ((c : Thread nD τ).loc main_v1)) :
    ∀ i ∈ (oCh6 c).view.set, (oCh6 c).view.writes (Elt F) o0
      [⟨Rect.whole S2048x1024, (xCh6 c).view.read (Elt F) (m ((c : Thread nD τ).loc main_arg0))⟩] i = outFinal m c i :=
  chunk_val_gen m c 6 (by decide) _ _ _ _ (k0_off4_eq c 6) (k0_off10_eq c) o0

theorem chunk_val7 (c : Dev nD) (o0 : Buf (Elt F) ((c : Thread nD τ).loc main_v1)) :
    ∀ i ∈ (oCh7 c).view.set, (oCh7 c).view.writes (Elt F) o0
      [⟨Rect.whole S2048x1024, (xCh7 c).view.read (Elt F) (m ((c : Thread nD τ).loc main_arg0))⟩] i = outFinal m c i :=
  chunk_val_gen m c 7 (by decide) _ _ _ _ (k0_off4_eq c 7) (k0_off11_eq c) o0

/-! ## The device's own rows, window by window -/

/-- Rows [16384·y + 2048·k, 16384·y + 16384) of the result of `c`: the windows from `k` on. -/
def ownTail (c : Dev nD) (k : ℕ) : Finset S32768x1024.Idx :=
  Finset.univ.filter fun i => 16384 * yOf c + 2048 * k ≤ (i 0).val ∧ (i 0).val < 16384 * yOf c + 16384

theorem mem_ownTail (c : Dev nD) (k : ℕ) (i : S32768x1024.Idx) :
    i ∈ ownTail c k ↔ 16384 * yOf c + 2048 * k ≤ (i 0).val ∧ (i 0).val < 16384 * yOf c + 16384 :=
  Finset.mem_filter.trans (and_iff_right (Finset.mem_univ i))

/-- From the first window on: all of the device's own rows. -/
theorem ownTail_zero (c : Dev nD) : ownTail c 0 = (rDst c).view.set := by
  ext i
  have h1 := mem_ownTail c 0 i
  have h2 := mem_rDst_set c i
  constructor
  · intro h; exact h2.mpr (by have := h1.mp h; omega)
  · intro h; exact h1.mpr (by have := h2.mp h; omega)

/-- The windows from `k` on are window `k` and, apart from it, the windows from `k + 1` on. -/
theorem ownTail_step (c : Dev nD) (k : ℕ) (off : Fin 2 → ℕ)
    (inb : ∀ a, off a + S2048x1024.size a ≤ S32768x1024.size a)
    (ho : off = ![16384 * yOf c + 2048 * k, 0]) (hk : k < 8) :
    ownTail c k = (oWin off inb).view.set ∪ ownTail c (k + 1)
      ∧ Disjoint (oWin off inb).view.set (ownTail c (k + 1)) := by
  have ho0 : off 0 = 16384 * yOf c + 2048 * k := congrFun ho 0
  have ho1 : off 1 = 0 := congrFun ho 1
  constructor
  · ext i
    have h1 : ((i : S32768x1024.Idx) 1).val < 1024 := idx2_lt1 (i : S32768x1024.Idx)
    have hw := mem_oWin off inb i
    have ht := mem_ownTail c k i
    have ht' := mem_ownTail c (k + 1) i
    constructor
    · intro h
      have := ht.mp h
      by_cases hlt : ((i : S32768x1024.Idx) 0).val < 16384 * yOf c + 2048 * k + 2048
      · exact Finset.mem_union.mpr (Or.inl (hw.mpr (by omega)))
      · exact Finset.mem_union.mpr (Or.inr (ht'.mpr (by omega)))
    · intro h
      rcases Finset.mem_union.mp h with h | h
      · have := hw.mp h; exact ht.mpr (by omega)
      · have := ht'.mp h; exact ht.mpr (by omega)
  · rw [Finset.disjoint_left]
    intro i h h'
    have := (mem_oWin off inb i).mp h
    have := (mem_ownTail c (k + 1) i).mp h'
    omega

/-- From the last window on: that window. -/
theorem ownTail_last (c : Dev nD) (off : Fin 2 → ℕ)
    (inb : ∀ a, off a + S2048x1024.size a ≤ S32768x1024.size a)
    (ho : off = ![16384 * yOf c + 2048 * 7, 0]) :
    ownTail c 7 = (oWin off inb).view.set := by
  have ho0 : off 0 = 16384 * yOf c + 2048 * 7 := congrFun ho 0
  have ho1 : off 1 = 0 := congrFun ho 1
  ext i
  have h1 : ((i : S32768x1024.Idx) 1).val < 1024 := idx2_lt1 (i : S32768x1024.Idx)
  have hw := mem_oWin off inb i
  have ht := mem_ownTail c 7 i
  constructor
  · intro h; have := ht.mp h; exact hw.mpr (by omega)
  · intro h; have := hw.mp h; exact ht.mpr (by omega)

/-- A buffer's indices cut in two. -/
theorem pts_cut {ℓ : Loc nD τ sig} {A B C : Finset (Idx ℓ)} (f : Buf (Elt F) ℓ) (h : A = B ∪ C ∧ Disjoint B C) :
    ((ℓ ↦[A]{fullShare} f : sProp 𝕄)) ⊣⊢ iprop((ℓ ↦[B]{fullShare} f) ∗ (ℓ ↦[C]{fullShare} f)) := by
  obtain ⟨rfl, hd⟩ := h
  exact pointsTo_union hd

/-- The device's own rows of the result are its eight windows. -/
theorem own_split8 (c : Dev nD) (f : Buf (Elt F) ((c : Thread nD τ).loc main_v1)) :
    ((((c : Thread nD τ).loc main_v1) ↦[(rDst c).view.set]{fullShare} f : sProp 𝕄)) ⊣⊢
      iprop(((oCh0 c).view.loc (c : Thread nD τ) ↦[(oCh0 c).view.set]{fullShare} f)
        ∗ ((oCh1 c).view.loc (c : Thread nD τ) ↦[(oCh1 c).view.set]{fullShare} f)
        ∗ ((oCh2 c).view.loc (c : Thread nD τ) ↦[(oCh2 c).view.set]{fullShare} f)
        ∗ ((oCh3 c).view.loc (c : Thread nD τ) ↦[(oCh3 c).view.set]{fullShare} f)
        ∗ ((oCh4 c).view.loc (c : Thread nD τ) ↦[(oCh4 c).view.set]{fullShare} f)
        ∗ ((oCh5 c).view.loc (c : Thread nD τ) ↦[(oCh5 c).view.set]{fullShare} f)
        ∗ ((oCh6 c).view.loc (c : Thread nD τ) ↦[(oCh6 c).view.set]{fullShare} f)
        ∗ ((oCh7 c).view.loc (c : Thread nD τ) ↦[(oCh7 c).view.set]{fullShare} f)) := by
  have s0 : ownTail c 0 = (oCh0 c).view.set ∪ ownTail c 1 ∧ Disjoint (oCh0 c).view.set (ownTail c 1) :=
    ownTail_step c 0 _ (Facts₀.k0_off4_inb c 0) (k0_off4_eq c 0) (by decide)
  have s1 : ownTail c 1 = (oCh1 c).view.set ∪ ownTail c 2 ∧ Disjoint (oCh1 c).view.set (ownTail c 2) :=
    ownTail_step c 1 _ (Facts₀.k0_off4_inb c 1) (k0_off4_eq c 1) (by decide)
  have s2 : ownTail c 2 = (oCh2 c).view.set ∪ ownTail c 3 ∧ Disjoint (oCh2 c).view.set (ownTail c 3) :=
    ownTail_step c 2 _ (Facts₀.k0_off4_inb c 2) (k0_off4_eq c 2) (by decide)
  have s3 : ownTail c 3 = (oCh3 c).view.set ∪ ownTail c 4 ∧ Disjoint (oCh3 c).view.set (ownTail c 4) :=
    ownTail_step c 3 _ (Facts₀.k0_off4_inb c 3) (k0_off4_eq c 3) (by decide)
  have s4 : ownTail c 4 = (oCh4 c).view.set ∪ ownTail c 5 ∧ Disjoint (oCh4 c).view.set (ownTail c 5) :=
    ownTail_step c 4 _ (Facts₀.k0_off4_inb c 4) (k0_off4_eq c 4) (by decide)
  have s5 : ownTail c 5 = (oCh5 c).view.set ∪ ownTail c 6 ∧ Disjoint (oCh5 c).view.set (ownTail c 6) :=
    ownTail_step c 5 _ (Facts₀.k0_off4_inb c 5) (k0_off4_eq c 5) (by decide)
  have s6 : ownTail c 6 = (oCh6 c).view.set ∪ ownTail c 7 ∧ Disjoint (oCh6 c).view.set (ownTail c 7) :=
    ownTail_step c 6 _ (Facts₀.k0_off4_inb c 6) (k0_off4_eq c 6) (by decide)
  have s7 : ownTail c 7 = (oCh7 c).view.set := ownTail_last c _ (Facts₀.k0_off4_inb c 7) (k0_off4_eq c 7)
  rw [← ownTail_zero c]
  have h7 : ((((c : Thread nD τ).loc main_v1) ↦[ownTail c 7]{fullShare} f : sProp 𝕄)) ⊣⊢
      iprop(((oCh7 c).view.loc (c : Thread nD τ) ↦[(oCh7 c).view.set]{fullShare} f)) := BiEntails.of_eq (by rw [s7])
  have h6 := (pts_cut (ℓ := (c : Thread nD τ).loc main_v1) f s6).trans (sep_congr_right h7)
  have h5 := (pts_cut (ℓ := (c : Thread nD τ).loc main_v1) f s5).trans (sep_congr_right h6)
  have h4 := (pts_cut (ℓ := (c : Thread nD τ).loc main_v1) f s4).trans (sep_congr_right h5)
  have h3 := (pts_cut (ℓ := (c : Thread nD τ).loc main_v1) f s3).trans (sep_congr_right h4)
  have h2 := (pts_cut (ℓ := (c : Thread nD τ).loc main_v1) f s2).trans (sep_congr_right h3)
  have h1 := (pts_cut (ℓ := (c : Thread nD τ).loc main_v1) f s1).trans (sep_congr_right h2)
  have h0 := (pts_cut (ℓ := (c : Thread nD τ).loc main_v1) f s0).trans (sep_congr_right h1)
  exact h0

/-- The eight windows, each at the final contents, make the device's own rows at the final contents. -/
theorem chunks_join (c : Dev nD) (g0 g1 g2 g3 g4 g5 g6 g7 : Buf (Elt F) ((c : Thread nD τ).loc main_v1))
    (h0 : ∀ i ∈ (oCh0 c).view.set, g0 i = outFinal m c i)
    (h1 : ∀ i ∈ (oCh1 c).view.set, g1 i = outFinal m c i)
    (h2 : ∀ i ∈ (oCh2 c).view.set, g2 i = outFinal m c i)
    (h3 : ∀ i ∈ (oCh3 c).view.set, g3 i = outFinal m c i)
    (h4 : ∀ i ∈ (oCh4 c).view.set, g4 i = outFinal m c i)
    (h5 : ∀ i ∈ (oCh5 c).view.set, g5 i = outFinal m c i)
    (h6 : ∀ i ∈ (oCh6 c).view.set, g6 i = outFinal m c i)
    (h7 : ∀ i ∈ (oCh7 c).view.set, g7 i = outFinal m c i) :
    iprop(((oCh0 c).view.loc (c : Thread nD τ) ↦[(oCh0 c).view.set]{fullShare} g0)
        ∗ ((oCh1 c).view.loc (c : Thread nD τ) ↦[(oCh1 c).view.set]{fullShare} g1)
        ∗ ((oCh2 c).view.loc (c : Thread nD τ) ↦[(oCh2 c).view.set]{fullShare} g2)
        ∗ ((oCh3 c).view.loc (c : Thread nD τ) ↦[(oCh3 c).view.set]{fullShare} g3)
        ∗ ((oCh4 c).view.loc (c : Thread nD τ) ↦[(oCh4 c).view.set]{fullShare} g4)
        ∗ ((oCh5 c).view.loc (c : Thread nD τ) ↦[(oCh5 c).view.set]{fullShare} g5)
        ∗ ((oCh6 c).view.loc (c : Thread nD τ) ↦[(oCh6 c).view.set]{fullShare} g6)
        ∗ ((oCh7 c).view.loc (c : Thread nD τ) ↦[(oCh7 c).view.set]{fullShare} g7))
      ⊢ ((((c : Thread nD τ).loc main_v1) ↦[(rDst c).view.set]{fullShare} outFinal m c : sProp 𝕄)) := by
  have e0 := pointsTo_congr (Ix := Unit) (Val := Elt F) (Name := ℕ) (U := UU) (Lvl := ℕ)
    (ℓ := (oCh0 c).view.loc (c : Thread nD τ)) (q := fullShare) h0
  have e1 := pointsTo_congr (Ix := Unit) (Val := Elt F) (Name := ℕ) (U := UU) (Lvl := ℕ)
    (ℓ := (oCh1 c).view.loc (c : Thread nD τ)) (q := fullShare) h1
  have e2 := pointsTo_congr (Ix := Unit) (Val := Elt F) (Name := ℕ) (U := UU) (Lvl := ℕ)
    (ℓ := (oCh2 c).view.loc (c : Thread nD τ)) (q := fullShare) h2
  have e3 := pointsTo_congr (Ix := Unit) (Val := Elt F) (Name := ℕ) (U := UU) (Lvl := ℕ)
    (ℓ := (oCh3 c).view.loc (c : Thread nD τ)) (q := fullShare) h3
  have e4 := pointsTo_congr (Ix := Unit) (Val := Elt F) (Name := ℕ) (U := UU) (Lvl := ℕ)
    (ℓ := (oCh4 c).view.loc (c : Thread nD τ)) (q := fullShare) h4
  have e5 := pointsTo_congr (Ix := Unit) (Val := Elt F) (Name := ℕ) (U := UU) (Lvl := ℕ)
    (ℓ := (oCh5 c).view.loc (c : Thread nD τ)) (q := fullShare) h5
  have e6 := pointsTo_congr (Ix := Unit) (Val := Elt F) (Name := ℕ) (U := UU) (Lvl := ℕ)
    (ℓ := (oCh6 c).view.loc (c : Thread nD τ)) (q := fullShare) h6
  have e7 := pointsTo_congr (Ix := Unit) (Val := Elt F) (Name := ℕ) (U := UU) (Lvl := ℕ)
    (ℓ := (oCh7 c).view.loc (c : Thread nD τ)) (q := fullShare) h7
  exact (BIClass.sep_mono (Entails.of_eq e0) <| BIClass.sep_mono (Entails.of_eq e1) <|
    BIClass.sep_mono (Entails.of_eq e2) <| BIClass.sep_mono (Entails.of_eq e3) <|
    BIClass.sep_mono (Entails.of_eq e4) <| BIClass.sep_mono (Entails.of_eq e5) <|
    BIClass.sep_mono (Entails.of_eq e6) (Entails.of_eq e7)).trans (own_split8 c (outFinal m c)).mpr

/-- info: 'Cert.KernelIdeal.A2A.chunks_join' depends on axioms: [propext, Classical.choice, Quot.sound] -/
#guard_msgs in #print axioms chunks_join

end Cert.KernelIdeal.A2A

end
-- ==== Proof.Body.lean ====
/-
  The body of the exchange on one device, and the obligation the launch asks of it.

  A device first signals its partner's barrier cell, handing over the rows of its own result that the partner will
  write, and waits on its own barrier cell for the partner's signal, which hands it the partner's rows in turn.  Then
  it fires the remote copy of the columns of the partner's `y` of its argument block into those rows, and, while
  that copy flies, moves the columns of its own `y` to the rows of its own `y` of its result, 2048 rows at a time
  through a two-slot scratch, each slot reused only once its copy out has been waited for.  Last it waits on its send
  cell (its source is its own again) and on its receive cell (the partner's copy has landed).  No copy's source or
  destination is touched while the copy is pending: the remote copy reads columns the local copies do not read and
  writes rows they do not write.
-/
import proofs.«900638_g7700000000000639_dist_a2a_v7x_xyz2x2x4_y_m16384_n1024_f32_1_alg».proof.Proof.Sched
import proofs.«900638_g7700000000000639_dist_a2a_v7x_xyz2x2x4_y_m16384_n1024_f32_1_alg».proof.Proof.Geom
import proofs.«900638_g7700000000000639_dist_a2a_v7x_xyz2x2x4_y_m16384_n1024_f32_1_alg».proof.Proof.Chunks
import proofs.«900638_g7700000000000639_dist_a2a_v7x_xyz2x2x4_y_m16384_n1024_f32_1_alg».proof.Proof.ChunkVal
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- the partner map is used through its equations only
attribute [local irreducible] partner

-- the kernel's two device chains are spelt as the partner throughout
attribute [local sl_canon] dev1_eq dev2_eq

/-! ## The payloads, spelt out at the two barrier cells a device meets -/

omit [FloatOps F] in
theorem payload_bar_partner (c : Dev nD) (d : Unit) : (sched (F := F) m).payload (barCell (partner c)) 0 d
    = iprop((∃ f : Buf (Elt F) ((rDst (partner c)).view.loc (c : Thread nD τ)),
        (rDst (partner c)).view.loc (c : Thread nD τ) ↦[(rDst (partner c)).view.set]{fullShare} f) ∗ reached ER (recvCell c) 0) := by
  rw [payload_bar]; unfold barPay; rw [partner_partner]

/-! ## The levels' word for the one wait made while owing -/

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (partner c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (partner c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (partner c) ∧ u = ()
      · rw [h.1]; dsimp only [lv]; rw [if_neg recv_ne_bar, if_pos rfl]; decide
      · rw [if_neg h] at hg; exact absurd hg (Nat.lt_irrefl 0))

/-! ## The rounds rules at this exchange's cells -/

omit [FloatOps F] in
/-- The signal to the partner's barrier cell: its one duty, paid with the rows the partner will write and the word that
    this device stands at round 0 of its receive cell. -/
theorem wp_signal_bar (K : Dev nD × Fin 3 → ℕ) (c : Dev nD) (W : Waits sig Unit) {α : Type} {Q : α → sProp 𝕄}
    {k : PUnit → Prog (TpuEff nD τ sig (Elt F) Λ₀ .tc) α} :
    iprop(cellInv ER (sched m) (K (partner c, 0)) (barCell (partner c))
        ∗ owes (c : Thread nD τ) (tallyAt (recvCell (partner c)) () N + tallyAt (barCell (partner c)) () 1) W
        ∗ dutyTok ER (barCell (partner c)) 0 ()
        ∗ ((∃ f : Buf (Elt F) ((rDst (partner c)).view.loc (c : Thread nD τ)),
              (rDst (partner c)).view.loc (c : Thread nD τ) ↦[(rDst (partner c)).view.set]{fullShare} f) ∗ reached ER (recvCell c) 0)
        ∗ reached ER (barCell (partner c)) 0)
      ⊢ iprop((owes (c : Thread nD τ) (tallyAt (recvCell (partner c)) () N) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (partner c : Thread nD τ) barS (1#32).toNat) k) Q) := by
  have h1 : (() : Unit) ∈ (sched (F := F) m).duties ((partner c : Thread nD τ), .reg barS) 0 := by rw [duties_bar]; exact Finset.mem_singleton_self _
  have h2 : (sched (F := F) m).amount ((partner c : Thread nD τ), .reg barS) 0 () = (1#32).toNat := (amount_bar m (partner c) ()).trans (by decide)
  have h3 := Rounds.wp_signal (defs := defs₀ (F := F)) (Γ := .empty) (Q := Q) 𝒱₀ ER (sched m) (c : Thread nD τ) none (dst := (partner c : Thread nD τ)) (sem := barS) (κ := K (partner c, 0))
      (d := ()) (k := k) h1 h2 () (O₀ := tallyAt (recvCell (partner c)) () N + tallyAt (barCell (partner c)) () 1)
      (tallyAt (recvCell (partner c)) () N) rfl (W := W) (Es := Set.univ)
  rw [payload_bar_partner] at h3
  exact h3

omit [FloatOps F] in
/-- The same with the continuation among the premises, so that it applies to a goal headed by the signal. -/
theorem wp_signal_bar' (K : Dev nD × Fin 3 → ℕ) (c : Dev nD) (W : Waits sig Unit) {α : Type} {Q : α → sProp 𝕄}
    {k : PUnit → Prog (TpuEff nD τ sig (Elt F) Λ₀ .tc) α} :
    iprop(cellInv ER (sched m) (K (partner c, 0)) (barCell (partner c))
        ∗ owes (c : Thread nD τ) (tallyAt (recvCell (partner c)) () N + tallyAt (barCell (partner c)) () 1) W
        ∗ dutyTok ER (barCell (partner c)) 0 ()
        ∗ ((∃ f : Buf (Elt F) ((rDst (partner c)).view.loc (c : Thread nD τ)),
              (rDst (partner c)).view.loc (c : Thread nD τ) ↦[(rDst (partner c)).view.set]{fullShare} f) ∗ reached ER (recvCell c) 0)
        ∗ reached ER (barCell (partner c)) 0
        ∗ (owes (c : Thread nD τ) (tallyAt (recvCell (partner c)) () N) W -∗ wp frame (wpE (defs₀ (F := F)) 𝒱₀ (c : Thread nD τ) none) Set.univ (k ⟨⟩) Q))
      ⊢ wp frame (wpE (defs₀ (F := F)) 𝒱₀ (c : Thread nD τ) none) Set.univ
              (.op (.semSignal (partner c : Thread nD τ) barS (1#32).toNat) k) Q := by
  iintro ⟨HA, HB, HC, HD, HE, Hk⟩
  iapply (wp_signal_bar m K c W) $$ [HA HB HC HD HE]
  · isplitl [HA]; · iexact HA
    isplitl [HB]; · iexact HB
    isplitl [HC]; · iexact HC
    isplitl [HD]; · iexact HD
    iexact HE
  iexact Hk

omit [FloatOps F] in
/-- The same, for every continuation at once, in the spelling the symbolic run leaves the signal in. -/
theorem wp_signal_barQ (K : Dev nD × Fin 3 → ℕ) (c : Dev nD) (W : Waits sig Unit) :
    ⊢ (∀ Q : PUnit → sProp 𝕄,
        iprop(cellInv ER (sched m) (K (partner c, 0)) (barCell (partner c))
          ∗ owes (c : Thread nD τ) (tallyAt (recvCell (partner c)) () N + tallyAt (barCell (partner c)) () 1) W
          ∗ dutyTok ER (barCell (partner c)) 0 ()
          ∗ ((∃ f : Buf (Elt F) ((rDst (partner c)).view.loc (c : Thread nD τ)),
                (rDst (partner c)).view.loc (c : Thread nD τ) ↦[(rDst (partner c)).view.set]{fullShare} f) ∗ reached ER (recvCell c) 0)
          ∗ reached ER (barCell (partner c)) 0
          ∗ (owes (c : Thread nD τ) (tallyAt (recvCell (partner c)) () N) W
              -∗ wp frame (wpE (defs₀ (F := F)) 𝒱₀ (c : Thread nD τ) none) Set.univ (Prog.ret ⟨⟩) Q))
        -∗ wp frame (wpE (defs₀ (F := F)) 𝒱₀ (c : Thread nD τ) none) Set.univ
              (Prog.op (TpuEff.semSignal ((partner (c : Thread nD τ).1, Proc.tc) : Thread nD τ) barS (1#32).toNat) Prog.ret) Q : sProp 𝕄) := by
  iintro %Q H
  iapply (wp_signal_bar' m K c W (k := Prog.ret) (Q := Q))
  iexact H

omit [FloatOps F] in
/-- The wait on the device's own barrier cell, owing its partner's receive credit: it comes back with what the partner's
    signal carried, the rows of the partner's result it will write and the partner's word on its receive cell. -/
theorem wp_wait_barQ (K : Dev nD × Fin 3 → ℕ) (c : Dev nD) (W : Waits sig Unit) :
    ⊢ (∀ Q : PUnit → sProp 𝕄,
        iprop(cellInv ER (sched m) (K (c, 0)) (barCell c) ∗ cred (tallyAt (barCell c) () 1)
          ∗ owes (c : Thread nD τ) (tallyAt (recvCell (partner c)) () N) W ∗ levAts L lv ∗ atPos ER (barCell c) 0 ∅ 0
          ∗ ((owes (c : Thread nD τ) (tallyAt (recvCell (partner c)) () N) (insert (SemLoc.reg barS, ()) W) ∗ barPay c)
              -∗ wp frame (wpE (defs₀ (F := F)) 𝒱₀ (c : Thread nD τ) none) Set.univ (Prog.ret ⟨⟩) Q))
        -∗ wp frame (wpE (defs₀ (F := F)) 𝒱₀ (c : Thread nD τ) none) Set.univ
              (Prog.op (TpuEff.semWait barS (1#32).toNat) Prog.ret) Q : sProp 𝕄) := by
  iintro %Q ⟨#HI, Hc, HO, #Hlev, Hat, Hk⟩
  iapply (Rounds.wp_wait_rest_token 𝒱₀ ER (sched m) (c : Thread nD τ) none (κ := K (c, 0))
      (wpE_semWait_eq 𝒱₀ (c : Thread nD τ) none Set.univ) (Set.mem_univ _) () (O := tallyAt (recvCell (partner c)) () N) (W := W) (R := 0) (m := 0) (T := ∅)
      (k := Prog.ret) (Q := Q) (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, -, -, Hpay⟩
  ihave Hp := (Entails.of_eq (rest_bar m c)) $$ Hpay
  iapply Hk
  isplitl [HO]; · iexact HO
  iexact Hp

/-- The remote copy: from the columns of the partner's `y` of this device's argument block into the rows of this device's
    `y` of the partner's result, crediting this device's send cell and the partner's receive cell.  The peer `n` is the
    kernel's own device chain, equal to the partner. -/
theorem wp_send_xQ (K : Dev nD × Fin 3 → ℕ) (c n : Dev nD) (hn : n = partner c) (W : Waits sig Unit)
    (fn : Buf (Elt F) ((rDst c).view.loc (partner c : Thread nD τ))) (α : Type) :
    ⊢ (∀ (k : PUnit → Prog (TpuEff nD τ sig (Elt F) Λ₀ .tc) α) (Q : α → sProp 𝕄),
        iprop(cellInv ER (sched m) (K (c, 1)) (sendCell c) ∗ cellInv ER (sched m) (K (partner c, 2)) (recvCell (partner c))
          ∗ sendPay m c ∗ ((rDst c).view.loc (partner c : Thread nD τ) ↦[(rDst c).view.set]{fullShare} fn)
          ∗ owes (c : Thread nD τ) (tallyAt (recvCell (partner c)) () N) W
          ∗ dutyTok ER (sendCell c) 0 () ∗ reached ER (sendCell c) 0
          ∗ dutyTok ER (recvCell (partner c)) 0 () ∗ reached ER (recvCell (partner c)) 0
          ∗ ((cred (tallyAt (sendCell c) () N) ∗ owes (c : Thread nD τ) 0 W)
              -∗ wp frame (wpE (defs₀ (F := F)) 𝒱₀ (c : Thread nD τ) none) Set.univ (k ⟨⟩) Q))
        -∗ wp frame (wpE (defs₀ (F := F)) 𝒱₀ (c : Thread nD τ) none) Set.univ
              (Prog.op (TpuEff.enqueueDma (rSrc c) (.remote (Dev.tc n : Thread nD τ) (rDst c) (.dma sendS.sem) rfl) (.dma recvS.sem)
                (View.wordExact_bits rfl) (View.wordExact_bits rfl) ⟨⟨rfl, Or.inl rfl⟩, trivial⟩) k) Q : sProp 𝕄) := by
  subst hn
  iintro %k %Q ⟨#HI1, #HI2, Hs, Hd, HO, Ht1, #Hr1, Ht2, #Hr2, Hk⟩
  unfold sendPay
  iapply (Rounds.wp_send_pointsTo 𝒱₀ ER (sched m) (c : Thread nD τ) none (κ₁ := K (c, 1)) (κ₂ := K (partner c, 2))
      (r₁ := 0) (r₂ := 0) (d₁ := ()) (d₂ := ()) (fd := fn) (k := k) (Q := Q)
      (by rw [duties_send]; exact Finset.mem_singleton_self _) (by rw [duties_recv]; exact Finset.mem_singleton_self _)
      () () N (N_eq c _) (amount_send m c ()) (amount_recv m (partner c) ()) 0 (by rw [zero_add]) (W := W)
      (by rw [payload_send]; unfold sendPay; exact BI.Entails.refl _)
      (by rw [payload_recv]; exact landing m c fn)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

omit [FloatOps F] in
/-- The source of the remote copy is credited like its destination. -/
theorem Nsrc_eq (c : Dev nD) : (rSrc c).view.dmaCredit = N := by unfold N; rfl
omit [FloatOps F] in
theorem Ndst_eq (c : Dev nD) : (rDst c).view.dmaCredit = N := by unfold N; rfl

/-- The wait on the device's own send cell, owing nothing: the source of its remote copy comes back, and the cell, which
    no later round credits, is closed with its counter at zero. -/
theorem wp_wait_sendQ (K : Dev nD × Fin 3 → ℕ) (c : Dev nD) (W : Waits sig Unit) (α : Type) :
    ⊢ (∀ (k : PUnit → Prog (TpuEff nD τ sig (Elt F) Λ₀ .tc) α) (Q : α → sProp 𝕄),
        iprop(cellInv ER (sched m) (K (c, 1)) (sendCell c) ∗ cred (tallyAt (sendCell c) () N)
          ∗ owes (c : Thread nD τ) 0 W ∗ atPos ER (sendCell c) 0 ∅ 0
          ∗ ((owes (c : Thread nD τ) 0 (insert (SemLoc.dma sendS.sem, ()) W) ∗ sendPay m c ∗ semVal (sendCell c) 0)
              -∗ wp frame (wpE (defs₀ (F := F)) 𝒱₀ (c : Thread nD τ) none) Set.univ (k ⟨⟩) Q))
        -∗ wp frame (wpE (defs₀ (F := F)) 𝒱₀ (c : Thread nD τ) none) Set.univ
              (Prog.op (TpuEff.waitDma2 sendS.sem (rDst c) (rSrc c) (View.wordExact_bits rfl) (View.wordExact_bits rfl)) k) Q : sProp 𝕄) := by
  iintro %k %Q ⟨#HI, Hc, HO, Hat, Hk⟩
  rw [← Nsrc_eq c]
  iapply (Rounds.wp_wait_rest_token 𝒱₀ ER (sched m) (c : Thread nD τ) none (κ := K (c, 1))
      (wpE_waitDma2_eq 𝒱₀ (c : Thread nD τ) none Set.univ) (Set.mem_univ _) () (O := 0) (W := W) (R := 0) (m := 0) (T := ∅)
      (k := k) (Q := Q) (by rw [Nat.zero_add, expect_send, Nsrc_eq])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c)) $$ Hpay
  imod (Rounds.cell_close ER (sched m) (Set.mem_univ (K (c, 1))) (fun h => h) (R := 0 + 1) (duties_later m (sendCell c))) $$ [Hat] with Hz
  · isplitr; · iexact HI
    iexact Hat
  iapply Hk
  isplitl [HO]; · iexact HO
  isplitl [Hp]; · iexact Hp
  iexact Hz

/-- The wait on the device's own receive cell: the rows its partner wrote come with it, at their final contents, and the
    cell is closed with its counter at zero. -/
theorem wp_wait_recvQ (K : Dev nD × Fin 3 → ℕ) (c : Dev nD) (W : Waits sig Unit) (α : Type) :
    ⊢ (∀ (k : PUnit → Prog (TpuEff nD τ sig (Elt F) Λ₀ .tc) α) (Q : α → sProp 𝕄),
        iprop(cellInv ER (sched m) (K (c, 2)) (recvCell c) ∗ cred (tallyAt (recvCell c) () N)
          ∗ owes (c : Thread nD τ) 0 W ∗ atPos ER (recvCell c) 0 ∅ 0
          ∗ ((owes (c : Thread nD τ) 0 (insert (SemLoc.dma recvS.sem, ()) W) ∗ recvPay m c ∗ semVal (recvCell c) 0)
              -∗ wp frame (wpE (defs₀ (F := F)) 𝒱₀ (c : Thread nD τ) none) Set.univ (k ⟨⟩) Q))
        -∗ wp frame (wpE (defs₀ (F := F)) 𝒱₀ (c : Thread nD τ) none) Set.univ
              (Prog.op (TpuEff.waitDma2 recvS.sem (rSrc c) (rDst c) (View.wordExact_bits rfl) (View.wordExact_bits rfl)) k) Q : sProp 𝕄) := by
  iintro %k %Q ⟨#HI, Hc, HO, Hat, Hk⟩
  rw [← Ndst_eq c]
  iapply (Rounds.wp_wait_rest_token 𝒱₀ ER (sched m) (c : Thread nD τ) none (κ := K (c, 2))
      (wpE_waitDma2_eq 𝒱₀ (c : Thread nD τ) none Set.univ) (Set.mem_univ _) () (O := 0) (W := W) (R := 0) (m := 0) (T := ∅)
      (k := k) (Q := Q) (by rw [Nat.zero_add, expect_recv, Ndst_eq])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c)) $$ Hpay
  imod (Rounds.cell_close ER (sched m) (Set.mem_univ (K (c, 2))) (fun h => h) (R := 0 + 1) (duties_later m (recvCell c))) $$ [Hat] with Hz
  · isplitr; · iexact HI
    iexact Hat
  iapply Hk
  isplitl [HO]; · iexact HO
  isplitl [Hp]; · iexact Hp
  iexact Hz

/-! ## The body -/

/-- What the body leaves: the argument block's shares, the eight windows of the own rows each holding the matching window
    of the argument block, the partner's rows at their final contents, the scratch at whatever the copies left, the six
    own semaphores at zero, nothing owed. -/
def bodyPost (c : Dev nD) (o0 : Buf (Elt F) ((c : Thread nD τ).loc main_v1)) : sProp 𝕄 :=
  iprop((xM.view.loc (c : Thread nD τ) ↦{fullShare.left} m ((c : Thread nD τ).loc main_arg0)) ∗ sendPay m c
    ∗ ((oCh0 c).view.loc (c : Thread nD τ) ↦[(oCh0 c).view.set]{fullShare}
        (oCh0 c).view.writes (Elt F) o0 [⟨Rect.whole S2048x1024, (xCh0 c).view.read (Elt F) (m ((c : Thread nD τ).loc main_arg0))⟩])
    ∗ ((oCh1 c).view.loc (c : Thread nD τ) ↦[(oCh1 c).view.set]{fullShare}
        (oCh1 c).view.writes (Elt F) o0 [⟨Rect.whole S2048x1024, (xCh1 c).view.read (Elt F) (m ((c : Thread nD τ).loc main_arg0))⟩])
    ∗ ((oCh2 c).view.loc (c : Thread nD τ) ↦[(oCh2 c).view.set]{fullShare}
        (oCh2 c).view.writes (Elt F) o0 [⟨Rect.whole S2048x1024, (xCh2 c).view.read (Elt F) (m ((c : Thread nD τ).loc main_arg0))⟩])
    ∗ ((oCh3 c).view.loc (c : Thread nD τ) ↦[(oCh3 c).view.set]{fullShare}
        (oCh3 c).view.writes (Elt F) o0 [⟨Rect.whole S2048x1024, (xCh3 c).view.read (Elt F) (m ((c : Thread nD τ).loc main_arg0))⟩])
    ∗ ((oCh4 c).view.loc (c : Thread nD τ) ↦[(oCh4 c).view.set]{fullShare}
        (oCh4 c).view.writes (Elt F) o0 [⟨Rect.whole S2048x1024, (xCh4 c).view.read (Elt F) (m ((c : Thread nD τ).loc main_arg0))⟩])
    ∗ ((oCh5 c).view.loc (c : Thread nD τ) ↦[(oCh5 c).view.set]{fullShare}
        (oCh5 c).view.writes (Elt F) o0 [⟨Rect.whole S2048x1024, (xCh5 c).view.read (Elt F) (m ((c : Thread nD τ).loc main_arg0))⟩])
    ∗ ((oCh6 c).view.loc (c : Thread nD τ) ↦[(oCh6 c).view.set]{fullShare}
        (oCh6 c).view.writes (Elt F) o0 [⟨Rect.whole S2048x1024, (xCh6 c).view.read (Elt F) (m ((c : Thread nD τ).loc main_arg0))⟩])
    ∗ ((oCh7 c).view.loc (c : Thread nD τ) ↦[(oCh7 c).view.set]{fullShare}
        (oCh7 c).view.writes (Elt F) o0 [⟨Rect.whole S2048x1024, (xCh7 c).view.read (Elt F) (m ((c : Thread nD τ).loc main_arg0))⟩])
    ∗ recvPay m c
    ∗ (∃ f : Buf (Elt F) ((c : Thread nD τ).loc cc0_scratch0), bM.view.loc (c : Thread nD τ) ↦{fullShare} f)
    ∗ localSems c ∗ semVal (sendCell c) 0 ∗ semVal (recvCell c) 0
    ∗ ∃ W' : Waits sig Unit, owes (c : Thread nD τ) 0 W')

set_option maxHeartbeats 4000000 in
/-- The body, from the exchange's ghost state and the buffers cut as it uses them: the signal, the barrier wait and the
    remote copy by the rounds rules; the sixteen local copies and their waits run symbolically; the two last waits by the
    rounds rules again, their cells closed. -/
theorem sound_body (K : Dev nD × Fin 3 → ℕ) (c : Dev nD) (W : Waits sig Unit)
    (b0 : Buf (Elt F) ((c : Thread nD τ).loc cc0_scratch0)) (o0 : Buf (Elt F) ((c : Thread nD τ).loc main_v1)) (Q : PUnit → sProp 𝕄) :
    iprop((ghost m K c ∗ localSems c ∗ cred (tallyAt (barCell c) () 1) ∗ cred (tallyAt (recvCell c) () N) ∗ levAts L lv
        ∗ (xM.view.loc (c : Thread nD τ) ↦{fullShare.left} m ((c : Thread nD τ).loc main_arg0))
        ∗ sendPay m c
        ∗ ((oCh0 c).view.loc (c : Thread nD τ) ↦[(oCh0 c).view.set]{fullShare} o0)
        ∗ ((oCh1 c).view.loc (c : Thread nD τ) ↦[(oCh1 c).view.set]{fullShare} o0)
        ∗ ((oCh2 c).view.loc (c : Thread nD τ) ↦[(oCh2 c).view.set]{fullShare} o0)
        ∗ ((oCh3 c).view.loc (c : Thread nD τ) ↦[(oCh3 c).view.set]{fullShare} o0)
        ∗ ((oCh4 c).view.loc (c : Thread nD τ) ↦[(oCh4 c).view.set]{fullShare} o0)
        ∗ ((oCh5 c).view.loc (c : Thread nD τ) ↦[(oCh5 c).view.set]{fullShare} o0)
        ∗ ((oCh6 c).view.loc (c : Thread nD τ) ↦[(oCh6 c).view.set]{fullShare} o0)
        ∗ ((oCh7 c).view.loc (c : Thread nD τ) ↦[(oCh7 c).view.set]{fullShare} o0)
        ∗ ((rDst (partner c)).view.loc (c : Thread nD τ) ↦[(rDst (partner c)).view.set]{fullShare} o0)
        ∗ (bM.view.loc (c : Thread nD τ) ↦{fullShare} b0)
        ∗ owes (c : Thread nD τ) (O₀ c) W)
        ∗ (bodyPost m c o0 -∗ Q ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3 cc0_scratch4) Q := by
  unfold ghost invs localSems O₀ O₁
  iintro ⟨⟨⟨⟨#HIbar, #HIsnd, #HIrcv, #HIbarP, #HIrcvP⟩, HatB, HatS, HatV, #HrBP, #HrVP, #HrS, #HrV, HtBP, HtVP, HtS⟩,
    ⟨Hin0, Hin1, Hout0, Hout1⟩, HcB, HcV, #Hlev, HxL, HxS, Ho0, Ho1, Ho2, Ho3, Ho4, Ho5, Ho6, Ho7, Hrem, Hbuf, HO⟩, Hk⟩
  unfold cc0_body
  sl_exec
  -- the signal to the partner's barrier cell
  iapply (wp_signal_barQ m K c W)
  isplitr; · iexact HIbarP
  isplitl [HO]; · iexact HO
  isplitl [HtBP]; · iexact HtBP
  isplitl [Hrem]
  · isplitl [Hrem]; · iexists o0; iexact Hrem
    iexact HrV
  isplitr; · iexact HrBP
  iintro HO
  rw [wp_ret]
  imodintro
  sl_exec
  -- the wait on the own barrier cell: the partner's rows come with it
  iapply (wp_wait_barQ m K c W)
  isplitr; · iexact HIbar
  isplitl [HcB]; · iexact HcB
  isplitl [HO]; · iexact HO
  isplitr; · iexact Hlev
  isplitl [HatB]; · iexact HatB
  iintro ⟨HO, Hp⟩
  unfold barPay
  icases Hp with ⟨⟨%fn, HdstP⟩, #HrVP'⟩
  rw [wp_ret]
  imodintro
  sl_exec
  -- the remote copy into the partner's result
  iapply (wp_send_xQ m K c _ (dev2_eq c) (insert (SemLoc.reg barS, ()) W) fn
    (Σ' (d0 : Dev nD) (v2 : BitVec 32) (v5 : BitVec 32) (v8 : BitVec 32), BitVec 32))
  isplitr; · iexact HIsnd
  isplitr; · iexact HIrcvP
  isplitl [HxS]; · iexact HxS
  isplitl [HdstP]; · iexact HdstP
  isplitl [HO]; · iexact HO
  isplitl [HtS]; · iexact HtS
  isplitr; · iexact HrS
  isplitl [HtVP]; · iexact HtVP
  isplitr; · iexact HrVP
  iintro ⟨HcS, HO⟩
  -- the eight local copies in and out of the two-slot scratch, and their waits
  sl_exec
  -- the wait on the send cell: the remote copy's source comes back
  iapply (wp_wait_sendQ m K c _ (Dev nD))
  isplitr; · iexact HIsnd
  isplitl [HcS]; · iexact HcS
  isplitl [HO]; · iexact HO
  isplitl [HatS]; · iexact HatS
  iintro ⟨HO, HxS, HzS⟩
  sl_exec
  -- the wait on the receive cell: the partner's rows, landed
  iapply (wp_wait_recvQ m K c _ PUnit)
  isplitr; · iexact HIrcv
  isplitl [HcV]; · iexact HcV
  isplitl [HO]; · iexact HO
  isplitl [HatV]; · iexact HatV
  iintro ⟨HO, Hrcv, HzV⟩
  sl_exec
  -- what each copy out of the scratch carried is what the copy into that slot had just brought: the argument block's window
  have e0 : sound_body.sl.dma0_1 m c b0 = (xCh0 c).view.read (Elt F) (m ((c : Thread nD τ).loc main_arg0)) := by
    unfold sound_body.sl.dma0_1
    exact (View.read_write_univ _ _).trans (by unfold sound_body.sl.dma0; rfl)
  have e1 : sound_body.sl.dma0_3 m c b0 = (xCh1 c).view.read (Elt F) (m ((c : Thread nD τ).loc main_arg0)) := by
    unfold sound_body.sl.dma0_3
    exact (View.read_write_univ _ _).trans (by unfold sound_body.sl.dma0_2; rfl)
  have e2 : sound_body.sl.dma0_5 m c b0 = (xCh2 c).view.read (Elt F) (m ((c : Thread nD τ).loc main_arg0)) := by
    unfold sound_body.sl.dma0_5
    exact (View.read_write_univ _ _).trans (by unfold sound_body.sl.dma0_4; rfl)
  have e3 : sound_body.sl.dma0_7 m c b0 = (xCh3 c).view.read (Elt F) (m ((c : Thread nD τ).loc main_arg0)) := by
    unfold sound_body.sl.dma0_7
    exact (View.read_write_univ _ _).trans (by unfold sound_body.sl.dma0_6; rfl)
  have e4 : sound_body.sl.dma0_9 m c b0 = (xCh4 c).view.read (Elt F) (m ((c : Thread nD τ).loc main_arg0)) := by
    unfold sound_body.sl.dma0_9
    exact (View.read_write_univ _ _).trans (by unfold sound_body.sl.dma0_8; rfl)
  have e5 : sound_body.sl.dma0_11 m c b0 = (xCh5 c).view.read (Elt F) (m ((c : Thread nD τ).loc main_arg0)) := by
    unfold sound_body.sl.dma0_11
    exact (View.read_write_univ _ _).trans (by unfold sound_body.sl.dma0_10; rfl)
  have e6 : sound_body.sl.dma0_13 m c b0 = (xCh6 c).view.read (Elt F) (m ((c : Thread nD τ).loc main_arg0)) := by
    unfold sound_body.sl.dma0_13
    exact (View.read_write_univ _ _).trans (by unfold sound_body.sl.dma0_12; rfl)
  have e7 : sound_body.sl.dma0_15 m c b0 = (xCh7 c).view.read (Elt F) (m ((c : Thread nD τ).loc main_arg0)) := by
    unfold sound_body.sl.dma0_15
    exact (View.read_write_univ _ _).trans (by unfold sound_body.sl.dma0_14; rfl)
  rw [e0, e1, e2, e3, e4, e5, e6, e7, wp_ret]
  imodintro
  iapply Hk
  unfold bodyPost localSems
  isplitl [HxL]; · iexact HxL
  isplitl [HxS]; · iexact HxS
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Hrcv]; · iexact Hrcv
  isplitl [Hbuf]; · iexists _; iexact Hbuf
  isplitl [Hin0 Hin1 Hout0 Hout1]
  · isplitl [Hin0]; · iexact Hin0
    isplitl [Hin1]; · iexact Hin1
    isplitl [Hout0]; · iexact Hout0
    iexact Hout1
  isplitl [HzS]; · iexact HzS
  isplitl [HzV]; · iexact HzV
  iexists _; iexact HO

/-! ## The obligation the launch asks -/

omit [FloatOps F] in
theorem whole_x (c : Dev nD) (q : PosShare TreeShare) (f : Buf (Elt F) ((c : Thread nD τ).loc main_arg0)) :
    ((xM.view.loc (c : Thread nD τ) ↦{q} f : sProp 𝕄)) = (((c : Thread nD τ).loc main_arg0) ↦{q} f) := rfl
omit [FloatOps F] in
theorem whole_b (c : Dev nD) (f : Buf (Elt F) ((c : Thread nD τ).loc cc0_scratch0)) :
    ((bM.view.loc (c : Thread nD τ) ↦{fullShare} f : sProp 𝕄)) = (((c : Thread nD τ).loc cc0_scratch0) ↦{fullShare} f) := rfl

set_option maxHeartbeats 1000000 in
/-- The library's body obligation on device `c`: the result buffer is cut into the partner's rows and the eight windows
    of the own rows, the argument block into its shares, the body is run, and the pieces are joined again — the own
    rows' windows hold the argument block's windows, which is what `outFinal` says of those rows. -/
theorem body_obligation (c : Dev nD) : BodyObligation (dats (F := F) m 0 c) (defs₀ (F := F)) 𝒱₀ () Set.univ := fun t => by
  rw [fin_N t]
  have hW0 : (Finset.univ : Finset (Fin cfg0.W)) = ∅ := by decide
  rw [hW0, bigSep_empty, bigSep_empty]
  show iprop(Φ₀ m c ∗ (dats m 0 c).owesAt () t₀.castSucc ∗ emp)
    ⊢ wp frame (wpE (defs₀ (F := F)) 𝒱₀ c none) Set.univ
        (cc0_body (Memref.whole main_arg0) (Memref.isWhole_whole _) (Memref.whole main_v1) (Memref.isWhole_whole _)
          (Memref.whole cc0_scratch0) (Memref.isWhole_whole _) cc0_scratch1 cc0_scratch2 cc0_scratch3 cc0_scratch4)
        (fun _ => iprop(Φ₁ m c ∗ (dats m 0 c).owesAt () t₀.succ ∗ emp))
  unfold Φ₀ start G' oPts0 Dat.owesAt Pipeline.owesWithin
  rw [show (dats m 0 c).owed t₀.castSucc = O₀ c from rfl, show (dats m 0 c).owed t₀.succ = 0 from rfl]
  iintro ⟨⟨⟨⟨⟨%K, Hg⟩, Hloc⟩, HcB, HcV, #Hlev, Hx, Ho⟩, ⟨%b0, Hbuf⟩⟩, ⟨%W, %hW, HO⟩, -⟩
  -- the argument block by shares, the remote copy's source apart
  ihave Hx3 := (x_split m c).1 $$ Hx
  icases Hx3 with ⟨HxL, HxS, HxR⟩
  -- the result by rows: the partner's, and the eight windows of the own
  ihave Ho2 := (out_split c _).1 $$ Ho
  icases Ho2 with ⟨Hown, Hrem⟩
  ihave Ho8 := (own_split8 c _).1 $$ Hown
  icases Ho8 with ⟨Ho0, Ho1, Ho2, Ho3, Ho4, Ho5, Ho6, Ho7⟩
  iapply (sound_body m K c W b0 (m ((c : Thread nD τ).loc main_v1))
    (fun _ => iprop(Φ₁ m c ∗ (∃ W' : Waits sig Unit, ⌜∀ p ∈ W', p ∈ (dats m 0 c).bound () t₀.succ⌝ ∗ owes (c : Thread nD τ) 0 W') ∗ emp)))
  isplitr [HxR]
  · isplitl [Hg]; · iexact Hg
    isplitl [Hloc]; · iexact Hloc
    isplitl [HcB]; · iexact HcB
    isplitl [HcV]; · iexact HcV
    isplitr; · iexact Hlev
    isplitl [HxL]; · iapply (Entails.of_eq (whole_x c fullShare.left (m ((c : Thread nD τ).loc main_arg0))).symm); iexact HxL
    isplitl [HxS]; · iexact HxS
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Hrem]; · iexact Hrem
    isplitl [Hbuf]; · iapply (Entails.of_eq (whole_b c b0).symm); iexact Hbuf
    iexact HO
  unfold bodyPost
  iintro ⟨HxL, HxS, Ho0, Ho1, Ho2, Ho3, Ho4, Ho5, Ho6, Ho7, Hrcv, ⟨%b1, Hbuf⟩, Hloc, HzS, HzV, ⟨%W', HO⟩⟩
  -- the own rows joined: each window holds the argument block's window, which is what the final contents are there
  ihave Hown := (chunks_join m c _ _ _ _ _ _ _ _ (chunk_val0 m c _) (chunk_val1 m c _) (chunk_val2 m c _) (chunk_val3 m c _) (chunk_val4 m c _) (chunk_val5 m c _) (chunk_val6 m c _) (chunk_val7 m c _)) $$ [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  ihave Hout := (out_join m c (outFinal m c) (fun _ _ => rfl)) $$ [Hown Hrcv]
  · isplitl [Hown]; · iexact Hown
    iexact Hrcv
  ihave Hx := (x_split m c).2 $$ [HxL HxS HxR]
  · isplitl [HxL]; · iapply (Entails.of_eq (whole_x c fullShare.left (m ((c : Thread nD τ).loc main_arg0)))); iexact HxL
    isplitl [HxS]; · iexact HxS
    iexact HxR
  unfold Φ₁
  isplitl [Hx Hout Hbuf Hloc HzS HzV]
  · isplitl [Hx]; · iexact Hx
    isplitl [Hout]; · iexact Hout
    isplitl [Hbuf]; · iexists b1; iapply (Entails.of_eq (whole_b c b1)); iexact Hbuf
    isplitl [Hloc]; · iexact Hloc
    isplitl [HzS]; · iexact HzS
    iexact HzV
  isplitl [HO]
  · iexists W'
    isplitr; · ipureintro; exact fun _ _ => Or.inl trivial
    iexact HO
  iempintro

/-- info: 'Cert.KernelIdeal.A2A.body_obligation' depends on axioms: [propext, Classical.choice, Quot.sound] -/
#guard_msgs in #print axioms body_obligation

end Cert.KernelIdeal.A2A

end
-- ==== Proof.Launch.lean ====
/-
  The launch of the exchange: from each device's body obligation to the run of @main.

  @main is one kernel region with no grid and no window: argument and result stay in HBM and travel through
  the launch as the unscoped buffers that are no window's array.  The launch element of the user algebra has
  three components: the pipeline's copy of the rounds algebra (no staging cell: nothing to fund there), the
  exchange's own, which funds the three cells of every device (barrier, send, receive: round state at zero,
  position, reached-mark, one duty token a cell), and the counters of the local copies, at their unit.  Under
  the one update at launch every device's three cell invariants are allocated from its counters at zero (the
  barrier's is the launch's one unscoped semaphore, send and receive are two of the kernel's own six) and
  their names recorded for all; the duty tokens are dealt to their payers: a device's barrier and receive
  tokens go to its PARTNER, its send token stays.  The four semaphores of the local copies pass through at
  zero.  The launch credit of a device is one unit on its barrier cell and the block's credit on its receive
  cell, both owed by its partner.  At the end the two HBM buffers are read against the memory: the argument
  block as launched, the result at `outFinal`.
-/
import proofs.«900638_g7700000000000639_dist_a2a_v7x_xyz2x2x4_y_m16384_n1024_f32_1_alg».proof.Proof.Sched

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Layout facts -/

/-- The six own semaphores are scoped, pairwise distinct, and none a staging semaphore (there is none). -/
theorem ownSemFacts : Pipeline.OwnSemFacts cfg0.spec osem := by decide

/-- No window: nothing to hold at a share. -/
theorem share_eq (m : (ℓ : Loc nD τ sig) → Buf (Elt F) ℓ) (c : Dev nD) (w : Fin cfg0.W) :
    (dats (F := F) m 0 c).share w = fullShare := w.elim0

/-! ## The exchange's cells and tokens, and the launch element -/

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The three cells of every device. -/
def exCells : Finset (GSem nD τ sig) := Finset.univ.map ⟨kcell, kcell_injective⟩

/-- Each cell's one duty token, of round 0. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def exToks : Finset (GSem nD τ sig × ℕ × Unit) := Finset.univ.map ⟨tokOf, tokOf_injective⟩

/-- The launch element: the pipeline's cells (none), the exchange's cells and tokens, the counters at their unit. -/
def u₀ : UU :=
  (initOf (Pipeline.cells cfgs cellOf_inj) (Pipeline.launchToks cfgs cellOf_inj), (initOf exCells exToks, 1))

/-- The duty tokens of device `c`'s own cells. -/
def ownToks (c : Dev nD) : sProp 𝕄 :=
  iprop(dutyTok ER (barCell c) 0 () ∗ dutyTok ER (sendCell c) 0 () ∗ dutyTok ER (recvCell c) 0 ())

/-- What the launch element deals device `c`. -/
def G (m : (ℓ : Loc nD τ sig) → Buf (Elt F) ℓ) (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ ownToks c)

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The exchange's component of the launch element, dealt device by device. -/
theorem fund_cells (m : (ℓ : Loc nD τ sig) → Buf (Elt F) ℓ) :
    BI.own (ER (F := F) (initOf exCells exToks)) ⊢ (|==> bigSep Finset.univ (G m) : sProp 𝕄) := by
  have hX (Φ : GSem nD τ sig → sProp 𝕄) :
      bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => ownToks c := by
    unfold exToks; rw [bigSep_map, bigSep_univ_prod]
    exact bigSep_congr fun c _ => by unfold ownToks; rw [bigSep_fin3]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element splits into the pipeline's component and the exchange's; the counters' unit is dropped. -/
theorem own_split (a : UR sig nD τ) (b : UB) :
    (ownU ((a, (b, 1)) : UU) : sProp 𝕄) ⊢ iprop(BI.own (EP (F := F) a) ∗ BI.own (ER (F := F) b)) := by
  iintro Hu
  ihave H := (ownU_pair a ((b, 1) : UB × Counters)) $$ Hu
  icases H with ⟨HP, HX⟩
  ihave H2 := (own_pair_emb (embR (A := UR sig nD τ) (B := UB × Counters) : Emb (UB × Counters) 𝕄) b (1 : Counters)) $$ HX
  icases H2 with ⟨HB, -⟩
  isplitl [HP]; · iexact HP
  iexact HB

/-! ## The global step: the cells' invariants allocated, the tokens dealt -/

/-- The kernel's own six semaphores at zero, one by one; -/
theorem ownSems0_eq (c : Dev nD) :
    (Pipeline.ownSems0 (Ix := Unit) (Name := ℕ) (U := UU) (Lvl := ℕ) (Val := Elt F) (τ := τ) osem c : sProp 𝕄)
      = iprop(semVal ((c : Thread nD τ), .dma in0) 0 ∗ semVal ((c : Thread nD τ), .dma in1) 0
          ∗ semVal ((c : Thread nD τ), .dma out0) 0 ∗ semVal ((c : Thread nD τ), .dma out1) 0
          ∗ semVal (sendCell c) 0 ∗ semVal (recvCell c) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem cellSems_intro (c : Dev nD) :
    iprop(semVal (barCell c) 0 ∗ semVal (sendCell c) 0 ∗ semVal (recvCell c) 0)
      ⊢ (bigSep Finset.univ fun k : Fin 3 => semVal (kcell (c, k)) 0 : sProp 𝕄) :=
  Entails.of_eq (bigSep_fin3 (fun k : Fin 3 => (semVal (kcell (c, k)) 0 : sProp 𝕄))).symm

/-- Device `c`'s three cell invariants allocated from its counters at zero and round states at zero; the local
    copies' four semaphores pass through. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop(((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ ownToks c)
          ∗ localSems c) := by
  rw [ownSems0_eq, unscopedSems0_eq]
  unfold G localSems
  iintro ⟨⟨H0, H1, H2, H3, HS, HV⟩, HB, Hst, Hat, Htok⟩
  ihave Hv := (cellSems_intro (F := F) c) $$ [HB HS HV]
  · isplitl [HB]; · iexact HB
    isplitl [HS] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv Hat Htok]
  · isplitl [Hinv]; · iexact Hinv
    isplitl [Hat]; · iexact Hat
    iexact Htok
  isplitl [H0]; · iexact H0
  isplitl [H1]; · iexact H1
  isplitl [H2] <;> iassumption

/-- The records every device may read: all cells' invariants at their names, all cells' round 0 reached. -/
def records (m : (ℓ : Loc nD τ sig) → Buf (Elt F) ℓ) (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (m : (ℓ : Loc nD τ sig) → Buf (Elt F) ℓ) (K : Dev nD × Fin 3 → ℕ) :
    BI.Persistent (records m K) := by unfold records; infer_instance

theorem inv_at (m : (ℓ : Loc nD τ sig) → Buf (Elt F) ℓ) (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties device `c` pays: its partner's barrier and receive duties, its own send duty. -/
def payToks (c : Dev nD) : sProp 𝕄 :=
  iprop(dutyTok ER (barCell (partner c)) 0 () ∗ dutyTok ER (recvCell (partner c)) 0 () ∗ dutyTok ER (sendCell c) 0 ())
/-- What stays with device `c`: its positions, and those tokens. -/
def linear (c : Dev nD) : sProp 𝕄 :=
  iprop((atPos ER (barCell c) 0 ∅ 0 ∗ atPos ER (sendCell c) 0 ∅ 0 ∗ atPos ER (recvCell c) 0 ∅ 0) ∗ payToks c)

theorem ghost_intro (m : (ℓ : Loc nD τ sig) → Buf (Elt F) ℓ) (K : Dev nD × Fin 3 → ℕ) (c : Dev nD) :
    iprop(records m K ∗ linear c) ⊢ iprop(∃ K, ghost m K c) := by
  unfold records linear payToks ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (partner c, 0)); iexact HI
    iapply (inv_at m K (partner c, 2)); iexact HI
  isplitl [HaB]; · iexact HaB
  isplitl [HaS]; · iexact HaS
  isplitl [HaV]; · iexact HaV
  isplitr; · iapply (reached_at (F := F) (partner c, 0)); iexact HR
  isplitr; · iapply (reached_at (F := F) (partner c, 2)); iexact HR
  isplitr; · iapply (reached_at (F := F) (c, 1)); iexact HR
  isplitr; · iapply (reached_at (F := F) (c, 2)); iexact HR
  isplitl [HtB]; · iexact HtB
  isplitl [HtV]; · iexact HtV
  iexact HtS

/-- The tokens dealt across each pair: a device's barrier token and its receive token go to its partner (the
    pairing is an involution of the mesh), its send token stays. -/
theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (m : (ℓ : Loc nD τ sig) → Buf (Elt F) ℓ) :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ ownToks c) : sProp 𝕄)
      ⊢ bigSep Finset.univ fun c : Dev nD => iprop(∃ K, ghost m K c) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: from every device's own and unscoped semaphores at zero and its share of the launch
    element, what each device's body starts from. -/
theorem regroup_all (m : (ℓ : Loc nD τ sig) → Buf (Elt F) ℓ) :
    (bigSep Finset.univ fun c : Dev nD => iprop(((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ ownToks c)
          ∗ localSems c) : sProp 𝕄)
      ⊢ bigSep Finset.univ (G' m) := by
  show _ ⊢ bigSep Finset.univ (fun c : Dev nD => iprop((∃ K, ghost m K c) ∗ localSems c))
  rw [bigSep_sep', bigSep_sep' Finset.univ (fun c : Dev nD => iprop(∃ K, ghost m K c)) (fun c => localSems c)]
  iintro ⟨HA, HL⟩
  ihave HG := (regroup m) $$ HA
  isplitl [HG] <;> iassumption

theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup_all m))

/-! ## The launch credit -/

theorem O₀_eq : (O₀ : Dev nD → CellTallies nD τ sig Unit)
    = fun d => tallyAt (recvCell (partner d)) () N + tallyAt (barCell (partner d)) () 1 := rfl

/-- Device `c` is its partner's partner: the unit its partner owes its barrier cell and the block's credit its
    partner owes its receive cell are its launch credit. -/
theorem creds (c : Dev nD) :
    (Pipeline.launchCred O₀ c : sProp 𝕄) ⊢ iprop(cred (tallyAt (barCell c) () 1) ∗ cred (tallyAt (recvCell c) () N)) := by
  rw [O₀_eq, Pipeline.launchCred_add]
  iintro ⟨HR, HB⟩
  isplitl [HB]
  · iapply (Pipeline.launchCred_tallyAt (SemLoc.reg barS) partner partner partner_partner partner_partner () 1 c); iexact HB
  · iapply (Pipeline.launchCred_tallyAt (SemLoc.dma recvS.sem) partner partner partner_partner partner_partner () N c); iexact HR

/-! ## The launch theorem's side conditions -/

/-- Before the region: the two HBM buffers, whole at their launch contents, join the ghost state, the launch
    credit and the level facts. -/
theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold start xPts oPts0
  isplitl
  · isplitl [HG]; · iexact HG
    isplitl [H1]; · iexact H1
    isplitl [HN]; · iexact HN
    isplitl [Hlev]; · iexact Hlev
    isplitl [Hx] <;> iassumption
  · iempintro

/-- At the region's entry the scratch buffer arrives at some contents. -/
theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

/-- At the region's exit: the two HBM buffers stay with the device, the six own semaphores go back at zero, the
    scratch at whatever it holds. -/
theorem phi1_exit (m : (ℓ : Loc nD τ sig) → Buf (Elt F) ℓ) (c : Dev nD) :
    (dats m 0 c).Φ (Fin.last cfg0.N)
      ⊢ iprop((xPts m c ∗ oPts1 m c) ∗ Pipeline.ownSems0 osem c ∗ Pipeline.scopedRest cfg0.spec c) := by
  rw [show (dats m 0 c).Φ (Fin.last cfg0.N) = Φ₁ m c from rfl, scopedRest0_eq, ownSems0_eq]
  unfold Φ₁ localSems
  iintro ⟨Hx, Ho, Hscr, ⟨H0, H1, H2, H3⟩, HS, HV⟩
  isplitl [Hx Ho]
  · isplitl [Hx] <;> iassumption
  isplitl [H0 H1 H2 H3 HS HV]
  · isplitl [H0]; · iexact H0
    isplitl [H1]; · iexact H1
    isplitl [H2]; · iexact H2
    isplitl [H3]; · iexact H3
    isplitl [HS] <;> iassumption
  iexact Hscr

/-- No window: the pipeline waits on no staging cell. -/
theorem waits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled mesh of sixteen devices, for any float values, from any memory with zero counters, given each
    device's body obligation: every weakly fair execution of @main terminates, nothing faulting, and every final
    state has each device's result at `outFinal` of the launch memory and its argument block unchanged. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) (s₀ m ρ)
      (fun r => ∀ c : Dev nD, r.2.mem ((c.tc : Thread nD τ).loc main_v1) = outFinal m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (own_split (F := F) _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := fun c => iprop(xPts m c ∗ oPts1 m c)) (Z := fun _ => iprop(emp))
    (hX := start_intro m ρ) (hin := phi0_intro m) (hout := phi1_exit m)
    (QY := fun c s => s.mem ((c.tc : Thread nD τ).loc main_arg0) = m ((c.tc : Thread nD τ).loc main_arg0)
      ∧ s.mem ((c.tc : Thread nD τ).loc main_v1) = outFinal m c)
    (hY := fun c s' => by
      unfold xPts oPts1
      iintro ⟨⟨Hx, Ho⟩, -, HSI⟩
      icombine HSI Hx gives %hx
      icombine HSI Ho gives %ho
      imodintro
      isplitr; · ipureintro; exact ⟨Buf.eq_of_forall_mem_univ hx, Buf.eq_of_forall_mem_univ ho⟩
      iexact HSI)
    (hQ := fun s h c => ⟨(h c).2.2.2, (h c).2.2.1⟩)

/-- info: 'Cert.KernelIdeal.A2A.run_main' depends on axioms: [propext, Classical.choice, Quot.sound] -/
#guard_msgs in #print axioms run_main

end Cert.KernelIdeal.A2A

end
-- ==== Proof.Value.lean ====
/-
  The all-to-all's result, read through the layouts of the whole array.

  Device `c` at mesh coordinate `y` holds rows [16384·y, 16384·y + 16384) of the whole 32768 × 2048 array; the
  result `outFinal` of the exchange reads entry (r, l) as column `1024·y + l` of row `r % 16384` of the block of the
  device at coordinate `r / 16384`, which is entry (16384·(r / 16384) + r % 16384, 1024·y + l) = (r, 1024·y + l) of
  the whole array: the column block `y` of all rows.
-/
import proofs.«900638_g7700000000000639_dist_a2a_v7x_xyz2x2x4_y_m16384_n1024_f32_1_alg».proof.Proof.Spec
import Idealize.ShloMosaic.Lib.Layout
import Idealize.ShloMosaic.Lib.ValueIdx

noncomputable section

namespace Cert.KernelIdeal.A2A

open Idealize.ShloMosaic Idealize.ShloMosaic.ValueIdx

/-- A dimension cut along mesh axis `y` alone gives device `c` the block of its `y` coordinate. -/
theorem meshLin_y (c : Dev nD) : Layout.meshLin [2, 2, 4] c.val [1] = yOf c := by revert c; decide

/-- A dimension that is not cut is one block. -/
theorem meshLin_nil (c : ℕ) : Layout.meshLin [2, 2, 4] c [] = 0 := rfl

/-- The device whose block holds row `r` is the one at `y = r / 16384`. -/
theorem yOf_srcDev (c : Dev nD) (r : ℕ) (hr : r < 32768) : yOf (srcDev c r) = r / 16384 := by
  have h2 : r / 16384 < 2 := by omega
  have hy := yOf_lt c
  unfold srcDev
  split
  · next h => exact h.symm
  · next h => rw [yOf_partner]; omega

variable {Val : EltTy → Type}

/-- The result of the exchange on device `c` is the column block `y` of the whole array whose row blocks the
    devices' arguments are. -/
theorem outFinal_eq_block (m : (ℓ : Loc nD τ sig) → Buf Val ℓ)
    (X : (⟨2, ![32768, 2048]⟩ : Shape).Idx → Val .f32)
    (hagree : ∀ c : Dev nD, m ((c.tc : Thread nD τ).loc main_arg0)
      = Layout.blockN ⟨2, ![16384, 2048]⟩ ⟨2, ![32768, 2048]⟩ (Layout.meshBlock [2, 2, 4] ![[1], []] c) X)
    (c : Dev nD) :
    outFinal m c = Layout.blockN ⟨2, ![32768, 1024]⟩ ⟨2, ![32768, 2048]⟩ (Layout.meshBlock [2, 2, 4] ![[], [1]] c) X := by
  funext i
  unfold outFinal
  rw [hagree]
  simp only [Layout.blockN_apply]
  congr 1
  funext b
  apply Fin.ext
  rw [Layout.TilesN.idx_val, Layout.TilesN.idx_val]
  simp only [Layout.meshBlock_val]
  have hi0 : (i 0).val < 32768 := (i 0).isLt
  match b with
  | ⟨0, _⟩ =>
    -- rows: 16384 · (r / 16384) + r % 16384 = r
    show Layout.meshLin [2, 2, 4] (srcDev c (i 0).val).val [1] * 16384 + (i 0).val % 16384
        = Layout.meshLin [2, 2, 4] c.val [] * 32768 + (i 0).val
    rw [meshLin_y, meshLin_nil, yOf_srcDev c _ hi0]
    omega
  | ⟨1, _⟩ =>
    -- columns: 1024 · y + l on both sides
    show Layout.meshLin [2, 2, 4] (srcDev c (i 0).val).val [] * 2048 + (1024 * yOf c + (i 1).val)
        = Layout.meshLin [2, 2, 4] c.val [1] * 1024 + (i 1).val
    rw [meshLin_y, meshLin_nil]
    omega

/-- info: 'Cert.KernelIdeal.A2A.outFinal_eq_block' depends on axioms: [propext, Classical.choice, Quot.sound] -/
#guard_msgs in #print axioms outFinal_eq_block

end Cert.KernelIdeal.A2A

end
-- ==== Proof.RefRun.lean ====
/-
  The run of the REFERENCE program (../ReferenceIdeal.lean, `Cert.ReferenceIdeal`: one device, one HBM buffer
  `main_arg0 : f32[32768, 2048]`, no kernel). Its @main performs no operation and returns its argument: the
  reference function is the identity, and its result buffer IS its argument buffer. So its line of host
  operations is the empty list, the fold of an empty line over the launch contents is the launch contents, and
  the library's statement for a straight line (`StableHlo.run_seq`) reads: for any float values, from any
  memory whose semaphore counters are zero, every weakly fair execution terminates, nothing faults, and every
  TensorCore buffer of every device ends holding what it held (`run_tc`). On this signature every location is
  such a buffer (`loc_eq`: the HBM table holds the one tensor value, every other table is empty), so the whole
  memory ends as it began (`run`). From it: the reference's frame (`frame_ri`) and the reference's half of the
  algebraic claim, the result named as the argument's launch contents (`ref_half`).
-/
import proofs.«900638_g7700000000000639_dist_a2a_v7x_xyz2x2x4_y_m16384_n1024_f32_1_alg».proof.Defs
import proofs.«900638_g7700000000000639_dist_a2a_v7x_xyz2x2x4_y_m16384_n1024_f32_1_alg».proof.Proof.Gen.ReferenceIdeal
import proofs.«900638_g7700000000000639_dist_a2a_v7x_xyz2x2x4_y_m16384_n1024_f32_1_alg».proof.Proof.Gen.Pre_finite_inputs_ReferenceIdeal
import Idealize.ShloMosaic.Lib.StableHlo.Run

noncomputable section

namespace Cert.ReferenceIdeal.RefRun

open Cert.ReferenceIdeal
open Idealize.ShloMosaic Idealize.ShloMosaic.TcCoe Idealize.ShloMosaic.StableHlo Idealize.SL.Sem

variable {F : FTy → Type} [FloatOps F]

/-- @main is the empty straight line: no operation, then the return. -/
theorem main_eq (c : Dev nD) : main (F := F) c = seq ([] : List (HloOp τ sig (Elt F))) := rfl

/-- Nothing is scoped on this signature: its one buffer is a tensor value in HBM, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- The fold of the empty line leaves every buffer's contents as they were. -/
theorem after_eq (V : Valuation τ sig (Elt F)) (b : DevRef τ sig) :
    after ([] : List (HloOp τ sig (Elt F))) V b = V b := rfl

/-- On its one device, for any float values, from any memory with zero counters: every weakly fair execution of
    @main on the TensorCore terminates, nothing faulting, and every final state has every TensorCore buffer of
    every device holding what it held at launch. -/
theorem run_tc (m' : (ℓ : Loc nD τ sig) → Buf (Elt F) ℓ) (g' : Dev nD → PrngReg) :
    θ_run (defs (F := F)) (onTc (τ := τ) (main (F := F))) ⟨m', fun _ => 0, g'⟩ fun r =>
      ∀ (d : Dev nD) (b : Ref sig .tc), r.2.mem ((d.tc : Thread nD τ).loc b) = m' ((d.tc : Thread nD τ).loc b) :=
  (θ_run (defs (F := F)) _ _).mono (fun _ h d b => (h d b).trans (after_eq _ _))
    (run_seq scopedRefs_eq scopedSems_eq defs main (fun _ => []) main_eq (fun _ => trivial) m' g'
      (fun _ _ h => nomatch h))

/-- Every location of this signature is a TensorCore buffer of its device: an HBM index is the one tensor
    value, which is the device's (no index is SparseCore scratch); the host table, the shared table and every
    processor's vector and scalar tables are empty. -/
theorem loc_eq (ℓ : Loc nD τ sig) : ∃ (d : Dev nD) (b : Ref sig .tc), ℓ = (d.tc : Thread nD τ).loc b := by
  rcases ℓ with ⟨d, ⟨_ | _ | _ | ⟨κ, cs⟩, i, u⟩⟩
  · exact ⟨d, ⟨.hbm, i, rfl⟩, rfl⟩
  · exact i.elim0
  · exact i.elim0
  · cases κ <;> cases cs <;> exact i.elim0

/-- The same run, read at every location: the whole memory ends as it began. -/
theorem run (m' : (ℓ : Loc nD τ sig) → Buf (Elt F) ℓ) (g' : Dev nD → PrngReg) :
    θ_run (defs (F := F)) (onTc (τ := τ) (main (F := F))) ⟨m', fun _ => 0, g'⟩ (fun r => ∀ ℓ, r.2.mem ℓ = m' ℓ) :=
  (θ_run (defs (F := F)) _ _).mono (fun _ h ℓ => by obtain ⟨d, b, rfl⟩ := loc_eq ℓ; exact h d b) (run_tc m' g')

/-- The reference's frame: it runs, and its argument array ends unchanged (the precondition is not used: an
    empty program moves nothing whatever the argument holds). -/
theorem frame_ri : Cert.frame_ReferenceIdeal :=
  fun m g _ => (θ_run (defs (F := Ideal)) _ _).mono (fun _ h _ => h _) (run m g)

/-- The reference's half of the algebraic claim, its result named as the argument's launch contents: the
    result buffer is the argument buffer, which ends holding what it held — the same fact twice. -/
theorem ref_half (m' : (ℓ : Loc nD τ sig) → Buf (Elt Ideal) ℓ) (g' : Dev nD → PrngReg) :
    θ_run (defs (F := Ideal)) (onTc (τ := τ) (main (F := Ideal))) ⟨m', fun _ => 0, g'⟩ (fun r =>
      r.2.mem (((0 : Dev nD).tc : Thread nD τ).loc main_arg0) = m' (((0 : Dev nD).tc : Thread nD τ).loc main_arg0)
      ∧ r.2.mem (((0 : Dev nD).tc : Thread nD τ).loc main_arg0) = m' (((0 : Dev nD).tc : Thread nD τ).loc main_arg0)) :=
  (θ_run (defs (F := Ideal)) _ _).mono (fun _ h => ⟨h _, h _⟩) (run m' g')

/-- info: 'Cert.ReferenceIdeal.RefRun.run' depends on axioms: [propext, Classical.choice, Quot.sound] -/
#guard_msgs in #print axioms run

/-- info: 'Cert.ReferenceIdeal.RefRun.frame_ri' depends on axioms: [propext, Classical.choice, Quot.sound] -/
#guard_msgs in #print axioms frame_ri

/-- info: 'Cert.ReferenceIdeal.RefRun.ref_half' depends on axioms: [propext, Classical.choice, Quot.sound] -/
#guard_msgs in #print axioms ref_half

end Cert.ReferenceIdeal.RefRun

end
-- ==== Proof.lean ====
/-
  The proof of `Cert.Claim`.

  The kernel is an all-to-all on mesh axis `y` of the 2 × 2 × 4 mesh: each of the sixteen devices holds a row
  block (16384 rows) of the whole 32768 × 2048 array and must end holding a column block (1024 columns) of all its
  rows.  The rows of its own `y` it has already; the other rows it receives from its partner, the device at the
  other `y` with the same `x` and `z`.  The reference is the identity on the whole array.
  * The three frames.  The kernel's run, from each device's body obligation through the launch, ends with each
    device's argument block unchanged; the same text read at the word level and at the ideal instance gives
    `frame_Kernel` and `frame_KernelIdeal`.  The reference performs no operation: `frame_ReferenceIdeal`.
  * `preserves`: the idealization rewrote no operation; nothing to show.
  * `algebraic`: the same run ends with each device's result at `outFinal` of the launch memory — entry (r, l) is
    column `1024·y + l` of row `r % 16384` of the argument block of the device that holds row `r` —, which, the
    devices' arguments being the row blocks of the whole array, is the device's column block of it; the
    reference's result is its argument, the whole array itself.
-/
import proofs.«900638_g7700000000000639_dist_a2a_v7x_xyz2x2x4_y_m16384_n1024_f32_1_alg».proof.Defs
import proofs.«900638_g7700000000000639_dist_a2a_v7x_xyz2x2x4_y_m16384_n1024_f32_1_alg».proof.Proof.Gen.Kernel
import proofs.«900638_g7700000000000639_dist_a2a_v7x_xyz2x2x4_y_m16384_n1024_f32_1_alg».proof.Proof.Gen.Kernel.Skeleton
import proofs.«900638_g7700000000000639_dist_a2a_v7x_xyz2x2x4_y_m16384_n1024_f32_1_alg».proof.Proof.Gen.Kernel.Launch
import proofs.«900638_g7700000000000639_dist_a2a_v7x_xyz2x2x4_y_m16384_n1024_f32_1_alg».proof.Proof.Gen.Kernel.Points
import proofs.«900638_g7700000000000639_dist_a2a_v7x_xyz2x2x4_y_m16384_n1024_f32_1_alg».proof.Proof.Gen.Kernel.Frame
import proofs.«900638_g7700000000000639_dist_a2a_v7x_xyz2x2x4_y_m16384_n1024_f32_1_alg».proof.Proof.Gen.KernelIdeal
import proofs.«900638_g7700000000000639_dist_a2a_v7x_xyz2x2x4_y_m16384_n1024_f32_1_alg».proof.Proof.Gen.KernelIdeal.Skeleton
import proofs.«900638_g7700000000000639_dist_a2a_v7x_xyz2x2x4_y_m16384_n1024_f32_1_alg».proof.Proof.Gen.KernelIdeal.Launch
import proofs.«900638_g7700000000000639_dist_a2a_v7x_xyz2x2x4_y_m16384_n1024_f32_1_alg».proof.Proof.Gen.KernelIdeal.Points
import proofs.«900638_g7700000000000639_dist_a2a_v7x_xyz2x2x4_y_m16384_n1024_f32_1_alg».proof.Proof.Gen.KernelIdeal.Frame
import proofs.«900638_g7700000000000639_dist_a2a_v7x_xyz2x2x4_y_m16384_n1024_f32_1_alg».proof.Proof.Gen.ReferenceIdeal
import proofs.«900638_g7700000000000639_dist_a2a_v7x_xyz2x2x4_y_m16384_n1024_f32_1_alg».proof.Proof.Gen.Pre_finite_inputs_Kernel
import proofs.«900638_g7700000000000639_dist_a2a_v7x_xyz2x2x4_y_m16384_n1024_f32_1_alg».proof.Proof.Gen.Pre_finite_inputs_ReferenceIdeal
import Idealize.ShloMosaic.Adequacy
import Idealize.ShloMosaic.Init
import proofs.«900638_g7700000000000639_dist_a2a_v7x_xyz2x2x4_y_m16384_n1024_f32_1_alg».proof.Proof.Body
import proofs.«900638_g7700000000000639_dist_a2a_v7x_xyz2x2x4_y_m16384_n1024_f32_1_alg».proof.Proof.KBody
import proofs.«900638_g7700000000000639_dist_a2a_v7x_xyz2x2x4_y_m16384_n1024_f32_1_alg».proof.Proof.Launch
import proofs.«900638_g7700000000000639_dist_a2a_v7x_xyz2x2x4_y_m16384_n1024_f32_1_alg».proof.Proof.KLaunch
import proofs.«900638_g7700000000000639_dist_a2a_v7x_xyz2x2x4_y_m16384_n1024_f32_1_alg».proof.Proof.Value
import proofs.«900638_g7700000000000639_dist_a2a_v7x_xyz2x2x4_y_m16384_n1024_f32_1_alg».proof.Proof.RefRun

noncomputable section

namespace Cert.Proof

open Idealize.ShloMosaic Idealize.SL.Sem

namespace Assembly

/-- The kernel as printed, read at the word level: it runs, and each device's argument block ends unchanged
    (the run's post with the result's value dropped). -/
theorem frame_Kernel : Cert.frame_Kernel :=
  fun m g _ => (θ_run _ _ _).mono (fun r h c => (h c).2) (Cert.Kernel.A2A.run_main (F := Bits) m g (Cert.Kernel.A2A.body_obligation m))

/-- The same text read at the ideal instance. -/
theorem frame_KernelIdeal : Cert.frame_KernelIdeal :=
  fun m g _ => (θ_run _ _ _).mono (fun r h c => (h c).2) (Cert.KernelIdeal.A2A.run_main (F := Ideal) m g (Cert.KernelIdeal.A2A.body_obligation m))

/-- The reference performs no operation. -/
theorem frame_ReferenceIdeal : Cert.frame_ReferenceIdeal := Cert.ReferenceIdeal.RefRun.frame_ri

/-- The value: the whole array is named as the reference's argument, which is its result; the kernel's run ends
    with each device's result at `outFinal` of the launch memory, and, the devices' arguments being the row
    blocks of the whole array, that is the device's column block of it. -/
theorem algebraic : Cert.algebraic_KernelIdeal_ReferenceIdeal :=
  fun m g m' g' _ hagree =>
    ⟨m' (((0 : Dev Cert.ReferenceIdeal.nD).tc : Thread Cert.ReferenceIdeal.nD Cert.ReferenceIdeal.τ).loc Cert.ReferenceIdeal.main_arg0),
      (θ_run _ _ _).mono (fun r h c => ⟨(h c).1.trans (Cert.KernelIdeal.A2A.outFinal_eq_block m _ hagree c), (h c).2⟩)
        (Cert.KernelIdeal.A2A.run_main (F := Ideal) m g (Cert.KernelIdeal.A2A.body_obligation m)),
      Cert.ReferenceIdeal.RefRun.ref_half m' g'⟩

end Assembly

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Assembly.frame_Kernel, Assembly.frame_KernelIdeal, Assembly.frame_ReferenceIdeal, trivial, Assembly.algebraic⟩

end Cert.Proof

end
